-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S512x1024 : Shape := ⟨2, ![512, 1024]⟩
abbrev S1024x4096 : Shape := ⟨2, ![1024, 4096]⟩
abbrev S1024 : Shape := ⟨1, ![1024]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S512x4096 .f32) (main_arg1 : FVec F S512x1024 .f32) (main_arg2 : FVec F S512x1024 .f32) (main_arg3 : FVec F S1024x4096 .f32) (main_arg4 : FVec F S1024 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_v13 main_v16
-- ==== Kernel.lean ====
abbrev S512x4096 : Shape := ⟨2, ![512, 4096]⟩
abbrev S512x1024 : Shape := ⟨2, ![512, 1024]⟩
abbrev S1024x4096 : Shape := ⟨2, ![1024, 4096]⟩
abbrev S1024 : Shape := ⟨1, ![1024]⟩
abbrev S1x1024 : Shape := ⟨2, ![1, 1024]⟩
abbrev S256x1024 : Shape := ⟨2, ![256, 1024]⟩
abbrev S1024x1024 : Shape := ⟨2, ![1024, 1024]⟩
abbrev S512x1 : Shape := ⟨2, ![512, 1]⟩
abbrev S256x1 : Shape := ⟨2, ![256, 1]⟩
abbrev S256 : Shape := ⟨1, ![256]⟩
abbrev S512x512 : Shape := ⟨2, ![512, 512]⟩
abbrev S128x1024 : Shape := ⟨2, ![128, 1024]⟩
abbrev S128x128 : Shape := ⟨2, ![128, 128]⟩
abbrev S128x64 : Shape := ⟨2, ![128, 64]⟩
abbrev S1x128x64 : Shape := ⟨3, ![1, 128, 64]⟩
abbrev S128x1x64 : Shape := ⟨3, ![128, 1, 64]⟩
abbrev S128x128x64 : Shape := ⟨3, ![128, 128, 64]⟩
abbrev S512x513 : Shape := ⟨2, ![512, 513]⟩

abbrev nBuf : Space → Nat
  | .hbm => 10
  | .vmem => 21
  | .smem => 0
  | _ => 0

abbrev bufTy : (tb : Table) → Fin (tcTables nBuf tb) → BufTy
  | .hbm, ⟨0, _⟩ => ⟨S512x4096, .f32⟩
  | .hbm, ⟨1, _⟩ => ⟨S512x1024, .f32⟩
  | .hbm, ⟨2, _⟩ => ⟨S512x1024, .f32⟩
  | .hbm, ⟨3, _⟩ => ⟨S1024x4096, .f32⟩
  | .hbm, ⟨4, _⟩ => ⟨S1024, .f32⟩
  | .hbm, ⟨5, _⟩ => ⟨S1x1024, .f32⟩
  | .hbm, ⟨6, _⟩ => ⟨S512x1024, .f32⟩
  | .hbm, ⟨7, _⟩ => ⟨S512x1, .f32⟩
  | .hbm, ⟨8, _⟩ => ⟨S512x512, .f32⟩
  | .hbm, ⟨9, _⟩ => ⟨S512x513, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1, .f32⟩
  | .local _ .vmem, ⟨13, _⟩ => ⟨S256x1, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![4, 4], ![false, false]⟩

def k2_mult1 : BitVec 32 :=
  let c0_i32 : BitVec 32 := 0#32
  let c64_i32 : BitVec 32 := 64#32
  let v4 : BitVec 32 := Scalar.muli c0_i32 c64_i32
  v4
def k2_off1 (c0_i32 : BitVec 32) : Fin 2 → Nat :=
  let c0_1 : Index := 0#32
  let c64_i32 : BitVec 32 := 64#32
  let v4 : BitVec 32 := Scalar.muli c0_i32 c64_i32
  let v5 : BitVec 32 := v4
  let v6 : Index := Scalar.indexCast v5
  ![0, v6.toNat]
def k2_mult2 : BitVec 32 :=
  let c1_i32 : BitVec 32 := 1#32
  let c64_i32_9 : BitVec 32 := 64#32
  let v25 : BitVec 32 := Scalar.muli c1_i32 c64_i32_9
  v25
def k2_mult3 : BitVec 32 :=
  let c2_i32 : BitVec 32 := 2#32
  let c64_i32_18 : BitVec 32 := 64#32
  let v46 : BitVec 32 := Scalar.muli c2_i32 c64_i32_18
  v46
def k2_mult4 : BitVec 32 :=
  let c3_i32 : BitVec 32 := 3#32
  let c64_i32_27 : BitVec 32 := 64#32
  let v67 : BitVec 32 := Scalar.muli c3_i32 c64_i32_27
  v67
def k2_mult5 : BitVec 32 :=
  let c4_i32 : BitVec 32 := 4#32
  let c64_i32_36 : BitVec 32 := 64#32
  let v88 : BitVec 32 := Scalar.muli c4_i32 c64_i32_36
  v88
def k2_mult6 : BitVec 32 :=
  let c5_i32 : BitVec 32 := 5#32
  let c64_i32_45 : BitVec 32 := 64#32
  let v109 : BitVec 32 := Scalar.muli c5_i32 c64_i32_45
  v109
def k2_mult7 : BitVec 32 :=
  let c6_i32 : BitVec 32 := 6#32
  let c64_i32_54 : BitVec 32 := 64#32
  let v130 : BitVec 32 := Scalar.muli c6_i32 c64_i32_54
  v130
def k2_mult8 : BitVec 32 :=
  let c7_i32 : BitVec 32 := 7#32
  let c64_i32_63 : BitVec 32 := 64#32
  let v151 : BitVec 32 := Scalar.muli c7_i32 c64_i32_63
  v151
def k2_mult9 : BitVec 32 :=
  let c8_i32 : BitVec 32 := 8#32
  let c64_i32_72 : BitVec 32 := 64#32
  let v172 : BitVec 32 := Scalar.muli c8_i32 c64_i32_72
  v172
def k2_mult10 : BitVec 32 :=
  let c9_i32 : BitVec 32 := 9#32
  let c64_i32_81 : BitVec 32 := 64#32
  let v193 : BitVec 32 := Scalar.muli c9_i32 c64_i32_81
  v193
def k2_mult11 : BitVec 32 :=
  let c10_i32 : BitVec 32 := 10#32
  let c64_i32_90 : BitVec 32 := 64#32
  let v214 : BitVec 32 := Scalar.muli c10_i32 c64_i32_90
  v214
def k2_mult12 : BitVec 32 :=
  let c11_i32 : BitVec 32 := 11#32
  let c64_i32_99 : BitVec 32 := 64#32
  let v235 : BitVec 32 := Scalar.muli c11_i32 c64_i32_99
  v235
def k2_mult13 : BitVec 32 :=
  let c12_i32 : BitVec 32 := 12#32
  let c64_i32_108 : BitVec 32 := 64#32
  let v256 : BitVec 32 := Scalar.muli c12_i32 c64_i32_108
  v256
def k2_mult14 : BitVec 32 :=
  let c13_i32 : BitVec 32 := 13#32
  let c64_i32_117 : BitVec 32 := 64#32
  let v277 : BitVec 32 := Scalar.muli c13_i32 c64_i32_117
  v277
def k2_mult15 : BitVec 32 :=
  let c14_i32 : BitVec 32 := 14#32
  let c64_i32_126 : BitVec 32 := 64#32
  let v298 : BitVec 32 := Scalar.muli c14_i32 c64_i32_126
  v298
def k2_mult16 : BitVec 32 :=
  let c15_i32 : BitVec 32 := 15#32
  let c64_i32_135 : BitVec 32 := 64#32
  let v319 : BitVec 32 := Scalar.muli c15_i32 c64_i32_135
  v319
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S128x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S128x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S128x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  reduces_S256x1024_S256 : S256x1024.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  h_S128x64 : 0 < S128x64.numel
  shapeCasts_S128x64_S128x64 : S128x64.ShapeCasts S128x64
  shapeCasts_S128x64_S1x128x64 : S128x64.ShapeCasts S1x128x64
  shapeCasts_S128x64_S128x1x64 : S128x64.ShapeCasts S128x1x64
  broadcasts_S1x128x64_S128x128x64 : S1x128x64.Broadcasts S128x128x64
  broadcasts_S128x1x64_S128x128x64 : S128x1x64.Broadcasts S128x128x64
  reduces_S128x128x64_S128x128 : S128x128x64.Reduces [2] S128x128
  concatenates_S512x1_S512x512_S512x513_d1 : Shape.Concatenates [S512x1, S512x512] S512x513 1
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S512x4096.size a
  hwx0_0 : ∀ i : grid0.Coords, EltTy.bits .f32 = 32 ∨ (Rect.block (s := S512x4096) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x4096.size a
  hwx0_1 : ∀ i : grid0.Coords, EltTy.bits .f32 = 32 ∨ (Rect.block (s := S1024x4096) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S512x1024.size a
  hwx0_3 : ∀ i : grid0.Coords, EltTy.bits .f32 = 32 ∨ (Rect.block (s := S512x1024) S256x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S512x1024.size a
  hwx1_0 : ∀ i : grid1.Coords, EltTy.bits .f32 = 32 ∨ (Rect.block (s := S512x1024) S256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S512x1024.size a
  hwx1_1 : ∀ i : grid1.Coords, EltTy.bits .f32 = 32 ∨ (Rect.block (s := S512x1024) S256x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S512x1.size a
  hwx1_2 : ∀ i : grid1.Coords, EltTy.bits .f32 = 32 ∨ (Rect.block (s := S512x1) S256x1.size (cc1_transform_2 i) (hinb1_2 i)).WholeWords (EltTy.packing .f32)
  hrank2 : 0 < grid2.rank
  k2_mult1_dvd : 64 ∣ k2_mult1.toNat
  k2_off1_inb : ∀ (r : Fin 16), ∀ a, (k2_off1 (BitVec.ofNat 32 r.val)) a + S128x64.size a ≤ S128x1024.size a
  k2_mult2_dvd : 64 ∣ k2_mult2.toNat
  k2_mult3_dvd : 64 ∣ k2_mult3.toNat
  k2_mult4_dvd : 64 ∣ k2_mult4.toNat
  k2_mult5_dvd : 64 ∣ k2_mult5.toNat
  k2_mult6_dvd : 64 ∣ k2_mult6.toNat
  k2_mult7_dvd : 64 ∣ k2_mult7.toNat
  k2_mult8_dvd : 64 ∣ k2_mult8.toNat
  k2_mult9_dvd : 64 ∣ k2_mult9.toNat
  k2_mult10_dvd : 64 ∣ k2_mult10.toNat
  k2_mult11_dvd : 64 ∣ k2_mult11.toNat
  k2_mult12_dvd : 64 ∣ k2_mult12.toNat
  k2_mult13_dvd : 64 ∣ k2_mult13.toNat
  k2_mult14_dvd : 64 ∣ k2_mult14.toNat
  k2_mult15_dvd : 64 ∣ k2_mult15.toNat
  k2_mult16_dvd : 64 ∣ k2_mult16.toNat
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x1024.size a ≤ S512x1024.size a
  hwx2_0 : ∀ i : grid2.Coords, EltTy.bits .f32 = 32 ∨ (Rect.block (s := S512x1024) S128x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x1024.size a ≤ S512x1024.size a
  hwx2_1 : ∀ i : grid2.Coords, EltTy.bits .f32 = 32 ∨ (Rect.block (s := S512x1024) S128x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S512x512.size a
  hwx2_2 : ∀ i : grid2.Coords, EltTy.bits .f32 = 32 ∨ (Rect.block (s := S512x512) S128x128.size (cc2_transform_2 i) (hinb2_2 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S128x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S128x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S128x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S512x4096 : Shape := ⟨2, ![512, 4096]⟩
abbrev S512x1024 : Shape := ⟨2, ![512, 1024]⟩
abbrev S1024x4096 : Shape := ⟨2, ![1024, 4096]⟩
abbrev S1024 : Shape := ⟨1, ![1024]⟩
abbrev S1x1024 : Shape := ⟨2, ![1, 1024]⟩
abbrev S_ : Shape := ⟨0, ![]⟩
abbrev S512 : Shape := ⟨1, ![512]⟩
abbrev S1x512x1024 : Shape := ⟨3, ![1, 512, 1024]⟩
abbrev S512x1x1024 : Shape := ⟨3, ![512, 1, 1024]⟩
abbrev S512x512x1024 : Shape := ⟨3, ![512, 512, 1024]⟩
abbrev S512x512 : Shape := ⟨2, ![512, 512]⟩
abbrev S512x1 : Shape := ⟨2, ![512, 1]⟩
abbrev S512x513 : Shape := ⟨2, ![512, 513]⟩

abbrev nBuf : Space → Nat
  | .hbm => 33
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S512x1024, .f32⟩
  | .hbm, ⟨2, _⟩ => ⟨S512x1024, .f32⟩
  | .hbm, ⟨3, _⟩ => ⟨S1024x4096, .f32⟩
  | .hbm, ⟨4, _⟩ => ⟨S1024, .f32⟩
  | .hbm, ⟨5, _⟩ => ⟨S512x1024, .f32⟩
  | .hbm, ⟨6, _⟩ => ⟨S1x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S1x512x1024, .f32⟩
  | .hbm, ⟨19, _⟩ => ⟨S512x1x1024, .f32⟩
  | .hbm, ⟨20, _⟩ => ⟨S512x512x1024, .f32⟩
  | .hbm, ⟨21, _⟩ => ⟨S512x512x1024, .f32⟩
  | .hbm, ⟨22, _⟩ => ⟨S512x512x1024, .f32⟩
  | .hbm, ⟨23, _⟩ => ⟨S_, .f32⟩
  | .hbm, ⟨24, _⟩ => ⟨S512x512x1024, .f32⟩
  | .hbm, ⟨25, _⟩ => ⟨S512x512x1024, .f32⟩
  | .hbm, ⟨26, _⟩ => ⟨S512x512x1024, .f32⟩
  | .hbm, ⟨27, _⟩ => ⟨S_, .f32⟩
  | .hbm, ⟨28, _⟩ => ⟨S512x512, .f32⟩
  | .hbm, ⟨29, _⟩ => ⟨S512x512, .f32⟩
  | .hbm, ⟨30, _⟩ => ⟨S512x512, .f32⟩
  | .hbm, ⟨31, _⟩ => ⟨S512x1, .f32⟩
  | .hbm, ⟨32, _⟩ => ⟨S512x513, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call1_cst : Ref sig .tc := ⟨.hbm, 23, rfl⟩
abbrev main_call1_v0 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  bcast_S_S512x1024 : S_.BroadcastsInDim S512x1024 (![] : Fin 0 → Fin S512x1024.rank)
  reducesTo_S512x1024_S512_d1 : S512x1024.ReducesTo [1] S512
  h_S_ : 0 < S_.numel
  bcast_S512x1024_S1x512x1024_1_2 : S512x1024.BroadcastsInDim S1x512x1024 (![1, 2] : Fin 2 → Fin S1x512x1024.rank)
  bcast_S512x1024_S512x1x1024_0_2 : S512x1024.BroadcastsInDim S512x1x1024 (![0, 2] : Fin 2 → Fin S512x1x1024.rank)
  bcast_S1x512x1024_S512x512x1024_0_1_2 : S1x512x1024.BroadcastsInDim S512x512x1024 (![0, 1, 2] : Fin 3 → Fin S512x512x1024.rank)
  bcast_S512x1x1024_S512x512x1024_0_1_2 : S512x1x1024.BroadcastsInDim S512x512x1024 (![0, 1, 2] : Fin 3 → Fin S512x512x1024.rank)
  bcast_S_S512x512x1024 : S_.BroadcastsInDim S512x512x1024 (![] : Fin 0 → Fin S512x512x1024.rank)
  reducesTo_S512x512x1024_S512x512_d2 : S512x512x1024.ReducesTo [2] S512x512
  bcast_S512_S512x1_0 : S512.BroadcastsInDim S512x1 (![0] : Fin 1 → Fin S512x1.rank)
  concatenates_S512x1_S512x512_S512x513_d1 : Shape.Concatenates [S512x1, S512x512] S512x513 1
  dot_S512x4096_S1024x4096_S512x1024_1_1_0_0_n_n_wf : DotDims.WF S512x4096 S1024x4096 S512x1024 [1] [1] [0] [0] [] []

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

class Facts : Prop extends Facts₀ where

variable [Facts]
-- ==== Proof.FrameK.Blocks.lean ====
/-
  The blocks of the three pallas_calls' windows, read off the arrays as a region finds them, and the fact that an
  input window's staging buffer holds its block at every grid point, whether the pipeline fetched it there or kept
  it from the point before (the block index did not move).
-/
import proofs.«160421_j35055523070022_1_alg».proof.Proof.Gen.Kernel.Launch
import proofs.«160421_j35055523070022_1_alg».proof.Proof.Gen.Kernel.Skeleton
import proofs.«160421_j35055523070022_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the TensorCore's buffers when a region is entered
variable (V : (c : Dev nD) → (b : Ref sig .tc) → Buf (Elt F) ((c : Thread nD τ).loc b))

/-- Window `w` of pallas_call 0 at grid point `t`: its block of the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of pallas_call 0 holds its block at every point, for any proof data over the entry contents that
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 of pallas_call 0 holds its block at every point, for any proof data over the entry contents that
    leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 of pallas_call 0 holds its block at every point, for any proof data over the entry contents that
    leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Window `w` of pallas_call 1 at grid point `t`: its block of the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of pallas_call 1 holds its block at every point, for any proof data over the entry contents that
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 of pallas_call 1 holds its block at every point, for any proof data over the entry contents that
    leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window `w` of pallas_call 2 at grid point `t`: its block of the array the region finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 of pallas_call 2 holds its block at every point, for any proof data over the entry contents that
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 of pallas_call 2 holds its block at every point, for any proof data over the entry contents that
    leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The third pallas_call's column chunks -/

/-- Columns 64·j … 64·j + 63 of a 128 × 1024 block: the rectangle the body loads its `j`-th chunk through. -/
abbrev chunk2 (j : Fin 16) : Rect S128x1024 :=
  Rect.unit (s := S128x1024) (k2_off1 (BitVec.ofNat 32 j.val)) S128x64.size (k2_off1_inb j)

/-- The running sum of squares the body keeps in its scratch: zero, then one chunk's contribution added per step. -/
def acc2 (x0 x1 : Vec F S128x1024 .f32) : (j : ℕ) → j ≤ 16 → FVec F S128x128 .f32
  | 0, _ => k2_pay1
  | j + 1, h => k2_pay2 (View.ld x0 (chunk2 ⟨j, h⟩)) (View.ld x1 (chunk2 ⟨j, h⟩)) (acc2 x0 x1 j (Nat.le_of_succ_le h))

end Cert.Kernel.Hand

end
-- ==== Proof.FrameK.Region0.lean ====
/-
  The body half of the frame of the first pallas_call: the matrix product accumulated over the four column blocks of
  the reduction axis in a scratch buffer the kernel carries from one grid point to the next. At a point with reduction
  index k = t % 4: at k = 0 the scratch is zeroed before the product of the two input blocks is added to it; at
  k = 1, 2, 3 the product is added to what the point before left; at k = 3 the output block is the scratch plus the
  bias row. The scratch after each point is stated in closed form (accAt0), and the region invariant holds it there.
-/
import proofs.«160421_j35055523070022_1_alg».proof.Proof.FrameK.Blocks
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the TensorCore's buffers when a region is entered
variable (V : (c : Dev nD) → (b : Ref sig .tc) → Buf (Elt F) ((c : Thread nD τ).loc b))

/-! ## The reduction index: where the scratch is zeroed and where the output is stored -/

/-- The body's first conditional: the reduction index of the point is 0. -/
abbrev firstK (i : grid0.Coords) : Prop :=
  (Scalar.cmpi .ne (Scalar.extui (Scalar.cmpi .eq (BitVec.ofNat 32 (i 1).val) 0#32)) 0#32) = 1#1
/-- It holds at the points t with t % 4 = 0. -/
theorem firstK_iff : ∀ t : Fin cfg0.N, firstK (grid0.coords t) ↔ t.val % 4 = 0 :=
  (by decide +kernel : ∀ t : Fin grid0.N, firstK (grid0.coords t) ↔ t.val % 4 = 0)

/-- The body's second conditional: the reduction index of the point is 3, the last. -/
abbrev lastK (i : grid0.Coords) : Prop := k0_cond2 i = 1#1
/-- It holds at the points t with t % 4 = 3. -/
theorem lastK_iff : ∀ t : Fin cfg0.N, lastK (grid0.coords t) ↔ t.val % 4 = 3 :=
  (by decide +kernel : ∀ t : Fin grid0.N, lastK (grid0.coords t) ↔ t.val % 4 = 3)

/-- The three input windows are live at every point. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last reduction index the output window is idle: nothing is stored into it -/
theorem idle0_3 : ∀ t : Fin cfg0.N, ¬lastK (grid0.coords t) → cfg0.idle 3 (grid0.coords t) = true := by decide +kernel
/-- and its block is not written back. -/
theorem noFlush0_3 : ∀ t : Fin cfg0.N, ¬lastK (grid0.coords t) → (cfg0.win 3).flush t = false := by decide +kernel
/-- At the last reduction index the output window is live. -/
theorem live0_3 : ∀ t : Fin cfg0.N, lastK (grid0.coords t) → cfg0.idle 3 (grid0.coords t) = false := by decide +kernel

/-! ## The scratch accumulator among the core's scoped buffers -/

/-- The accumulator, as the whole scoped buffer the kernel is passed beside its windows. -/
abbrev accM0 : Memref sig .tc .vmem S256x1024 .f32 := Memref.whole cc0_scratch0

/-- The core's scoped buffers other than this call's staging buffers, split at the accumulator; the others are
    never opened. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The other scoped buffers, unopened. -/
abbrev otherScoped0 (c : Dev nD) : sProp 𝕄 :=
  Pipeline.scopedRestBut (Ix := Unit) (Name := ℕ) (U := UR sig nD τ) (Lvl := ℕ) (Val := Elt F) spec0 c [cc0_scratch0]

/-- What the launch hands the region, with the accumulator as a memref owned at some contents. -/
theorem PhiA0_eq (c : Dev nD) :
    (Pipeline.ΦA spec0 c : sProp 𝕄)
      = iprop(iprop((∃ d, owns (c : Thread nD τ) accM0 fullShare d) ∗ otherScoped0 c) ∗ (∃ r, prngReg c r)) := by
  unfold Pipeline.ΦA; rw [scopedRest0_split]; simp only [accM0, owns_whole]; try rfl

/-- The offset the body's loads and stores are made at: the origin. -/
theorem origin0 : (![0, 0] : Fin 2 → ℕ) = fun _ => 0 := by funext a; fin_cases a <;> rfl

section WholeBuffer

variable {Val : EltTy → Type} {S : Shape} {e : EltTy} {sg : RefSig} {κ : Kind} {sp : Space}

/-- A buffer whose last store went through the whole-shape rectangle at the origin holds that store's value,
    whatever was stored before. -/
theorem read_writes_whole_last0 [∀ e, Nonempty (Val e)] (v : View sg κ sp S e) (f : v.ty.Contents Val)
    {off : Fin S.rank → Nat} (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- A load through the whole-shape rectangle at the origin of a whole memref held at contents x reads x. -/
theorem readAt_whole_unread0 (m : Memref sg κ sp S e) (hm : m.IsWhole) {off : Fin S.rank → Nat} (h : off = fun _ => 0)
    (inb : ∀ a, off a + S.size a ≤ S.size a) (x : S.Idx → Val e) :
    View.readAt Val m.view (Rect.unit off S.size inb).toLoadRect (hm.unread x) = x := by
  rw [View.readAt_eq_ld, hm.read_unread, View.ld_unit_zero h]

end WholeBuffer

/-! ## The body's run, case by case -/

set_option maxHeartbeats 1000000 in
/-- At reduction index 0: on whole memrefs, the inputs at their blocks, the idle output at contents handed back untouched,
    the accumulator at anything, the body runs to the continuation with the accumulator at the product added to the zero
    block (the zero block is stored first and read back). -/
theorem run_firstK (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (hc0 : firstK i) (hc1 : ¬lastK i)
    (x0 : Vec F S256x1024 .f32) (x1 : Vec F S1024x1024 .f32) (x2 : Vec F S1x1024 .f32) (xi3 : Vec F S256x1024 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare (k0_pay2 x0 x1 (k0_pay1 (F := F)))) -∗ K ⟨⟩))
      ⊢ wp frame (wpE (defs₀ (F := F)) Variants.none c none) E (cc0__matmul_kernel i arg2 harg2 arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS0
  ipureintro
  refine (read_writes_whole_last0 (S := S256x1024) arg6.view fs0 origin0 inb_S256x1024_S256x1024_0_0 _ _).trans ?_
  sl_unfold_words
  have e0 := readAt_whole_unread0 (S := S256x1024) arg2 harg2 origin0 inb_S256x1024_S256x1024_0_0 x0
  have e1 := readAt_whole_unread0 (S := S1024x1024) arg3 harg3 origin0 inb_S1024x1024_S1024x1024_0_0 x1
  have e2 := View.readCov_unit_zero (Val := Elt F) (S := S256x1024) arg6.view origin0 inb_S256x1024_S256x1024_0_0 (k0_pay1 (F := F))
  rw [e0, e1, e2]

set_option maxHeartbeats 1000000 in
/-- At reduction index 1 or 2: the accumulator, found at the contents xs0 the point before left, ends at the product
    added to xs0; the output stays idle. -/
theorem run_midK (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (hc0 : ¬firstK i) (hc1 : ¬lastK i)
    (x0 : Vec F S256x1024 .f32) (x1 : Vec F S1024x1024 .f32) (x2 : Vec F S1x1024 .f32) (xi3 : Vec F S256x1024 .f32)
    (xs0 : Vec F S256x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs0
        ∗ (iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare (k0_pay2 x0 x1 xs0)) -∗ K ⟨⟩))
      ⊢ wp frame (wpE (defs₀ (F := F)) Variants.none c none) E (cc0__matmul_kernel i arg2 harg2 arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg2.eq_unread hf0; obtain rfl := harg3.eq_unread hf1; obtain rfl := harg4.eq_unread hf2; obtain rfl := harg5.eq_unread hf3
  obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS0
  ipureintro
  refine (read_writes_whole_last0 (S := S256x1024) arg6.view _ origin0 inb_S256x1024_S256x1024_0_0 _ _).trans ?_
  try sl_unfold_words
  have e0 := readAt_whole_unread0 (S := S256x1024) arg2 harg2 origin0 inb_S256x1024_S256x1024_0_0 x0
  have e1 := readAt_whole_unread0 (S := S1024x1024) arg3 harg3 origin0 inb_S1024x1024_S1024x1024_0_0 x1
  have e2 := readAt_whole_unread0 (S := S256x1024) arg6 harg6 origin0 inb_S256x1024_S256x1024_0_0 xs0
  rw [e0, e1, e2]

set_option maxHeartbeats 1000000 in
/-- At reduction index 3: the accumulator ends at the product added to xs0, and the output block, found at anything,
    is left at the new accumulator plus the bias row. -/
theorem run_lastK (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (hc0 : ¬firstK i) (hc1 : lastK i)
    (x0 : Vec F S256x1024 .f32) (x1 : Vec F S1024x1024 .f32) (x2 : Vec F S1x1024 .f32)
    (xs0 : Vec F S256x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs0
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 x0 x1 xs0) x2)
            ∗ owns (c : Thread nD τ) arg6 fullShare (k0_pay2 x0 x1 xs0)) -∗ K ⟨⟩))
      ⊢ wp frame (wpE (defs₀ (F := F)) Variants.none c none) E (cc0__matmul_kernel i arg2 harg2 arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1; obtain rfl := harg4.eq_unread hf2
  obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (read_writes_whole_last0 (S := S256x1024) arg5.view f3 origin0 inb_S256x1024_S256x1024_0_0 _ _).trans ?_
    try sl_unfold_words
    have e0 := readAt_whole_unread0 (S := S256x1024) arg2 harg2 origin0 inb_S256x1024_S256x1024_0_0 x0
    have e1 := readAt_whole_unread0 (S := S1024x1024) arg3 harg3 origin0 inb_S1024x1024_S1024x1024_0_0 x1
    have e2 := readAt_whole_unread0 (S := S256x1024) arg6 harg6 origin0 inb_S256x1024_S256x1024_0_0 xs0
    have e3 := readAt_whole_unread0 (S := S1x1024) arg4 harg4 origin0 inb_S1x1024_S1x1024_0_0 x2
    rw [e0, e1, e2, e3, View.readCov_unit_zero (Val := Elt F) (S := S256x1024) arg6.view origin0 inb_S256x1024_S256x1024_0_0 (k0_pay2 x0 x1 xs0)]
  iexists _; isplitr
  swap; · iexact HS0
  ipureintro
  refine (read_writes_whole_last0 (S := S256x1024) arg6.view _ origin0 inb_S256x1024_S256x1024_0_0 _ _).trans ?_
  try sl_unfold_words
  have e0 := readAt_whole_unread0 (S := S256x1024) arg2 harg2 origin0 inb_S256x1024_S256x1024_0_0 x0
  have e1 := readAt_whole_unread0 (S := S1024x1024) arg3 harg3 origin0 inb_S1024x1024_S1024x1024_0_0 x1
  have e2 := readAt_whole_unread0 (S := S256x1024) arg6 harg6 origin0 inb_S256x1024_S256x1024_0_0 xs0
  rw [e0, e1, e2]

/-! ## The accumulator after each point -/

/-- What the scratch accumulator holds after the body at position n: at reduction index 0 the product of the point's
    two input blocks added to the zero block, elsewhere added to what the point before left. -/
def accAt0 (c : Dev nD) : (n : ℕ) → n < cfg0.N → Vec F S256x1024 .f32
  | 0, hn => k0_pay2 (iblk0 V c 0 ⟨0, hn⟩) (iblk0 V c 1 ⟨0, hn⟩) (k0_pay1 (F := F))
  | n + 1, hn =>
    if (n + 1) % 4 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (accAt0 c n (Nat.lt_of_succ_lt hn))

/-- At reduction index 0 the accumulation starts afresh from the zero block. -/
theorem accAt0_reset (c : Dev nD) (n : ℕ) (hn : n < cfg0.N) (h : n % 4 = 0) :
    accAt0 V c n hn = k0_pay2 (iblk0 V c 0 ⟨n, hn⟩) (iblk0 V c 1 ⟨n, hn⟩) (k0_pay1 (F := F)) := by
  cases n with
  | zero => rfl
  | succ n => exact if_pos h

/-- Elsewhere it goes on from the point before. -/
theorem accAt0_step (c : Dev nD) (n : ℕ) (hn : n + 1 < cfg0.N) (h : ¬ (n + 1) % 4 = 0) :
    accAt0 V c (n + 1) hn = k0_pay2 (iblk0 V c 0 ⟨n + 1, hn⟩) (iblk0 V c 1 ⟨n + 1, hn⟩) (accAt0 V c n (Nat.lt_of_succ_lt hn)) :=
  if_neg h

/-- The same two facts at a grid point. -/
theorem accAt0_first (c : Dev nD) (t : Fin cfg0.N) (h0 : t.val % 4 = 0) :
    accAt0 V c t.val t.isLt = k0_pay2 (iblk0 V c 0 t) (iblk0 V c 1 t) (k0_pay1 (F := F)) :=
  accAt0_reset V c t.val t.isLt h0

theorem accAt0_next (c : Dev nD) (t : Fin cfg0.N) (h0 : ¬ t.val % 4 = 0) :
    accAt0 V c t.val t.isLt = k0_pay2 (iblk0 V c 0 t) (iblk0 V c 1 t)
      (accAt0 V c (t.val - 1) (Nat.lt_of_le_of_lt (Nat.sub_le _ _) t.isLt)) := by
  obtain ⟨n, hn⟩ := t
  cases n with
  | zero => exact absurd (Nat.zero_mod _) h0
  | succ n => exact accAt0_step V c n hn h0

/-! ## The region invariant -/

/-- Before position n: before the first point what the launch hands over (the accumulator at anything); afterwards the
    accumulator at what the point before left, the other scoped buffers unopened, the generator register at some state. -/
def PhiS0 (c : Dev nD) : (n : ℕ) → n ≤ cfg0.N → sProp 𝕄
  | 0, _ => Pipeline.ΦA spec0 c
  | n + 1, hn => iprop(iprop(owns (c : Thread nD τ) accM0 fullShare (accAt0 V c n hn) ∗ otherScoped0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) accM0 fullShare (accAt0 V c n hn) ∗ otherScoped0 c) ∗ (∃ r, prngReg c r)) := rfl

theorem PhiS0_pos (c : Dev nD) (n : ℕ) (h : n ≤ cfg0.N) (hz : n ≠ 0) :
    PhiS0 V c n h = iprop(iprop(owns (c : Thread nD τ) accM0 fullShare (accAt0 V c (n - 1) (by omega)) ∗ otherScoped0 c) ∗ (∃ r, prngReg c r)) := by
  cases n with
  | zero => exact absurd rfl hz
  | succ n => rfl

/-! ## The proof data -/

/-- The proof data of the first pallas_call on core c: the arrays as the region finds them; after the body at point t
    each input's buffer at its block, the output's at the accumulator after t plus the bias row (consulted only where
    the output is stored: at reduction index 3); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accAt0 V c t.val t.isLt) (iblk0 V c 2 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
/-- Where the output is stored it is the accumulator after the point plus the bias row. -/
theorem after0_3 (c : Dev nD) (t : Fin cfg0.N) (h : t.val % 4 = 3) :
    (dat0 V c).after 3 t = k0_pay3 (accAt0 V c t.val t.isLt) (iblk0 V c 2 t) := by dsimp only [dat0]

/-- Each input's current staging buffer holds its block at every point, fetched there or kept. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- Each window's current staging memref at point t, as the pipeline passes it to the body. -/
abbrev stg0 (t : Fin cfg0.N) : Memref sig .tc .vmem S256x1024 .f32 := win0_0.stage (cfg0.slots t 0)
abbrev stg1 (t : Fin cfg0.N) : Memref sig .tc .vmem S1024x1024 .f32 := win0_1.stage (cfg0.slots t 1)
abbrev stg2 (t : Fin cfg0.N) : Memref sig .tc .vmem S1x1024 .f32 := win0_2.stage (cfg0.slots t 2)
abbrev stg3 (t : Fin cfg0.N) : Memref sig .tc .vmem S256x1024 .f32 := win0_3.stage (cfg0.slots t 3)

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (stg0 t) fullShare ((dat0 V c).before 0 t d))
    ∗ (∃ d, owns (c : Thread nD τ) (stg1 t) fullShare ((dat0 V c).before 1 t d))
    ∗ (∃ d, owns (c : Thread nD τ) (stg2 t) fullShare ((dat0 V c).before 2 t d))
    ∗ (∃ d, owns (c : Thread nD τ) (stg3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the reduction index says which case the point is in;
    the invariant hands the body the accumulator at what the point before left (at anything at the first point) and takes
    it back at this point's contents; away from reduction index 3 the output's buffer goes back untouched, at 3 it is
    left at the accumulator plus the bias row; nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (stg0 t) fullShare ((dat0 V c).after 0 t) from by
    unfold Dat.leavesExact; rw [live0_0 t], after0_0]
  rw [show (dat0 V c).leavesExact 1 t = owns (c : Thread nD τ) (stg1 t) fullShare ((dat0 V c).after 1 t) from by
    unfold Dat.leavesExact; rw [live0_1 t], after0_1]
  rw [show (dat0 V c).leavesExact 2 t = owns (c : Thread nD τ) (stg2 t) fullShare ((dat0 V c).after 2 t) from by
    unfold Dat.leavesExact; rw [live0_2 t], after0_2]
  have hN : t.val < 8 := lt_of_lt_of_eq t.isLt (show cfg0.N = 8 from N_0)
  by_cases h0 : t.val % 4 = 0
  · have h1 : ¬ t.val % 4 = 3 := by omega
    have hc0 : firstK (grid0.coords t) := (firstK_iff t).mpr h0
    have hc1 : ¬lastK (grid0.coords t) := fun h => h1 ((lastK_iff t).mp h)
    rw [Dat.leavesExact_idle (dat0 V c) 3 t (idle0_3 t hc1) (noFlush0_3 t hc1)]
    rw [accAt0_first V c t h0]
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩, ⟨%d3, H3⟩⟩
      iapply (run_firstK c (grid0.coords t) _ _ _ _ _ _ _ _ _ _ hc0 hc1 (iblk0 V c 0 t) (iblk0 V c 1 t) (iblk0 V c 2 t) _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply (run_firstK c (grid0.coords t) _ _ _ _ _ _ _ _ _ _ hc0 hc1 (iblk0 V c 0 t) (iblk0 V c 1 t) (iblk0 V c 2 t) _ Set.univ _)
      isplitl [H0]; · iexact H0
      isplitl [H1]; · iexact H1
      isplitl [H2]; · iexact H2
      isplitl [H3]; · iexact H3
      isplitl [HS0]; · iexists _; iexact HS0
      iintro ⟨H0, H1, H2, H3, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬firstK (grid0.coords t) := fun h => h0 ((firstK_iff t).mp h)
    rw [accAt0_next V c t h0]
    rw [PhiS0_castSucc V c t, PhiS0_pos V c _ _ hz]
    by_cases h1 : t.val % 4 = 3
    · have hc1 : lastK (grid0.coords t) := (lastK_iff t).mpr h1
      rw [show (dat0 V c).leavesExact 3 t = owns (c : Thread nD τ) (stg3 t) fullShare ((dat0 V c).after 3 t) from by
        unfold Dat.leavesExact; rw [live0_3 t hc1], after0_3 V c t h1, accAt0_next V c t h0]
      iintro ⟨⟨⟨HS0, Hr⟩, Hg⟩, Ho, ⟨%d0, H0⟩, ⟨%d1, H1⟩, ⟨%d2, H2⟩, ⟨%d3, H3⟩⟩
      iapply (run_lastK c (grid0.coords t) _ _ _ _ _ _ _ _ _ _ hc0 hc1 (iblk0 V c 0 t) (iblk0 V c 1 t) (iblk0 V c 2 t) _ Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      iexact H3
    · have hc1 : ¬lastK (grid0.coords t) := fun h => h1 ((lastK_iff t).mp h)
      rw [Dat.leavesExact_idle (dat0 V c) 3 t (idle0_3 t hc1) (noFlush0_3 t hc1)]
      iintro ⟨⟨⟨HS0, Hr⟩, Hg⟩, Ho, ⟨%d0, H0⟩, ⟨%d1, H1⟩, ⟨%d2, H2⟩, ⟨%d3, H3⟩⟩
      iapply (run_midK c (grid0.coords t) _ _ _ _ _ _ _ _ _ _ hc0 hc1 (iblk0 V c 0 t) (iblk0 V c 1 t) (iblk0 V c 2 t) _ _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the launch's form back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 8 := N_0; omega)

end Cert.Kernel.Hand

end
-- ==== Proof.FrameK.Region2.lean ====
/-
  The body half of the frame of the third pallas_call (the negative scores): within each grid point the body zeroes
  a scratch accumulator, adds to it the sixteen column chunks' sums of squared positive parts, and stores
  0 - sqrt(accumulator) into the output window's buffer.
-/
import proofs.«160421_j35055523070022_1_alg».proof.Proof.FrameK.Blocks
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the TensorCore's buffers when a region is entered
variable (V : (c : Dev nD) → (b : Ref sig .tc) → Buf (Elt F) ((c : Thread nD τ).loc b))

/-- What the body leaves in the output window's buffer, from the two input blocks (the first the block of the
    negatives, the second the block of the embeddings): 0 - sqrt of the sum, over the sixteen column chunks, of the
    squared positive parts of the differences. -/
def out2_2 (x0 x1 : Vec F S128x1024 .f32) : Vec F S128x128 .f32 :=
  k2_pay25 (acc2 x0 x1 16 (Nat.le_refl 16))

theorem out2_2_eq (x0 x1 : Vec F S128x1024 .f32) : out2_2 x0 x1 = k2_pay25 (acc2 x0 x1 16 (Nat.le_refl 16)) := rfl

/-! ## The sixteen chunk steps are one step

The printed body spells a chunk's contribution in several ways (the subtraction, the zero vector or the positive
part computed before a statement boundary and handed on); each is the same function of the two loaded chunks and
the running sum. -/
section ChunkSteps
variable (a b : Vec F S128x64 .f32) (p : Vec F S128x128 .f32)

theorem k2_step5_eq : k2_pay5 (k2_pay3 a b) (k2_pay4 (F := F)) p = k2_pay2 a b p := rfl
theorem k2_step6_eq : k2_pay6 a b p = k2_pay2 a b p := rfl
theorem k2_step9_eq : k2_pay9 (k2_pay7 b) (k2_pay8 a) p = k2_pay2 a b p := rfl
theorem k2_step10_eq : k2_pay10 a b p = k2_pay2 a b p := rfl
theorem k2_step11_eq : k2_pay11 a b p = k2_pay2 a b p := rfl
theorem k2_step12_eq : k2_pay12 a b p = k2_pay2 a b p := rfl
theorem k2_step13_eq : k2_pay13 a b p = k2_pay2 a b p := rfl
theorem k2_step14_eq : k2_pay14 a b p = k2_pay2 a b p := rfl
theorem k2_step15_eq : k2_pay15 a b p = k2_pay2 a b p := rfl
theorem k2_step17_eq : k2_pay17 (k2_pay16 a b p) = k2_pay2 a b p := rfl
theorem k2_step18_eq : k2_pay18 a b p = k2_pay2 a b p := rfl
theorem k2_step20_eq : k2_pay20 (k2_pay19 a b p) = k2_pay2 a b p := rfl
theorem k2_step21_eq : k2_pay21 a b p = k2_pay2 a b p := rfl
theorem k2_step23_eq : k2_pay23 (k2_pay22 a b) p = k2_pay2 a b p := rfl
theorem k2_step24_eq : k2_pay24 a b p = k2_pay2 a b p := rfl

end ChunkSteps

/-- The zero offsets of a rank-two rectangle, spelt as a constant function. -/
theorem zeroOff_S128x128 : (![0, 0] : Fin S128x128.rank → ℕ) = fun _ => 0 := by
  funext a; fin_cases a <;> rfl

/-! ## The body's triple -/

set_option maxHeartbeats 2000000 in
/-- The body on whole memrefs, the two inputs' at read contents `x0`, `x1`, the output's and the scratch
    accumulator's at anything, runs to the continuation holding the inputs' as they were, the output's at
    `out2_2 x0 x1` and the accumulator's at some contents. Every load of the accumulator comes after a store that
    covers it, so it reads that store's payload; the seventeen payloads then chain into the running sum. -/
theorem sound_kernel2 (c : Dev nD) (E : Set ℕ) (i : grid2.Coords)
    (arg2 : Memref sig .tc .vmem S128x1024 .f32) (harg2 : arg2.IsWhole)
    (arg3 : Memref sig .tc .vmem S128x1024 .f32) (harg3 : arg3.IsWhole)
    (arg4 : Memref sig .tc .vmem S128x128 .f32) (harg4 : arg4.IsWhole)
    (arg5 : Memref sig .tc .vmem S128x128 .f32) (harg5 : arg5.IsWhole)
    (x0 x1 : Vec F S128x1024 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (out2_2 x0 x1) ∗ (∃ d, owns (c : Thread nD τ) arg5 fullShare d)) -∗ K ⟨⟩))
      ⊢ wp frame (wpE (defs₀ (F := F)) Variants.none c none) E (cc2__nscore_kernel i arg2 harg2 arg3 harg3 arg4 harg4 arg5 harg5) K := by
  simp only [cc2__nscore_kernel_eq_skeleton]; unfold cc2__nscore_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    -- the one store into the output's buffer covers it: the buffer reads as the store's payload
    refine (View.read_writes_eq_canon _ _ _ (fun y => ⟨_, List.mem_singleton_self _, View.mem_set_unit_zero zeroOff_S128x128 inb_S128x128_S128x128_0_0 y⟩)).trans ?_
    refine (View.canon_unit_zero zeroOff_S128x128 inb_S128x128_S128x128_0_0 _).trans ?_
    -- each load of the accumulator reads the payload of the store just before it
    sl_unfold_run_names
    simp only [View.readCov_cons_toLoadRect]
    -- the sixteen steps are one step, and the chain is the running sum
    simp only [k2_step5_eq, k2_step6_eq, k2_step9_eq, k2_step10_eq, k2_step11_eq, k2_step12_eq, k2_step13_eq, k2_step14_eq, k2_step15_eq, k2_step17_eq, k2_step18_eq,
      k2_step20_eq, k2_step21_eq, k2_step23_eq, k2_step24_eq]
    rfl
  iexists _, _; isplitr
  swap; · iexact H3
  ipureintro; rfl

/-! ## The pipeline's proof data -/

/-- The proof data of the third pallas_call on core `c`: the arrays as the region finds them; after the body at point
    `t` each input's buffer at its block and the output's at `out2_2` of the two input blocks; the invariant the scoped
    buffers that are no staging buffer (the scratch accumulator among them) at some contents and the generator
    register at some state; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by
  dsimp only [dat2]

/-- Each input's current staging buffer holds its block at every point, fetched there or kept from the point before. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The invariant, with the scratch accumulator in the open -/

/-- The accumulator as the body is handed it: the whole scoped buffer. -/
abbrev scM2 : Memref sig .tc .vmem S128x128 .f32 := Memref.whole cc2_scratch0

/-- The region's invariant is the accumulator owned at some contents, the other scoped buffers that are no staging
    buffer of this call (unopened), and the generator register at some state. -/
theorem PhiA2_eq (c : Dev nD) :
    (Pipeline.ΦA spec2 c : sProp 𝕄)
      = iprop(((∃ d, owns (c : Thread nD τ) scM2 fullShare d)
          ∗ Pipeline.scopedRestBut (Ix := Unit) (Name := ℕ) (U := UR sig nD τ) (Lvl := ℕ) (Val := Elt F) spec2 c [cc2_scratch0])
          ∗ (∃ r, prngReg c r)) := by
  unfold Pipeline.ΦA
  rw [Pipeline.scopedRest_split_of_list spec2 c [cc2_scratch0] (by decide) (by decide)]
  simp only [scM2, owns_whole, BI.bigSepL_singleton]; try rfl

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, the invariant lends the accumulator at some
    contents and takes it back at some contents; the rest of the invariant and what the core owes pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2,
    show (dat2 V c).Φ t.castSucc = Pipeline.ΦA spec2 c from rfl, PhiA2_eq]
  iintro ⟨⟨⟨HS, Hrest⟩, Hg⟩, Ho, ⟨%d0, H0⟩, ⟨%d1, H1⟩, ⟨%d2, H2⟩⟩
  iapply (sound_kernel2 c Set.univ _ _ _ _ _ _ _ _ _ (iblk2 V c 0 t) (iblk2 V c 1 t) _)
  isplitl [H0]; · iexact H0
  isplitl [H1]; · iexact H1
  isplitl [H2]; · iexists _; iexact H2
  isplitl [HS]; · iexact HS
  iintro ⟨H0, H1, H2, HS⟩
  isplitl [HS Hrest Hg]
  · isplitl [HS Hrest]
    · isplitl [HS]; · iexact HS
      iexact Hrest
    iexact Hg
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.FrameK.Region1.lean ====
/-
  The second pallas_call (the positive score): what its body leaves at a grid point. The body loads the block of
  `p` and the block of the embedding whole, and stores into the output block [256, 1] the one value
  0 - √(Σ_e max(p - emb, 0)²) per row; it keeps nothing between points and uses no scratch, so the region's invariant is
  the untouched rest.
-/
import proofs.«160421_j35055523070022_1_alg».proof.Proof.FrameK.Blocks
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The whole-block rectangles the body loads and stores through. -/
abbrev rIn1 : Rect S256x1024 := Rect.unit (s := S256x1024) ![0, 0] S256x1024.size inb_S256x1024_S256x1024_0_0
abbrev rOut1 : Rect S256x1 := Rect.unit (s := S256x1) ![0, 0] S256x1.size inb_S256x1_S256x1_0_0

/-- The output block after the body, from the two input blocks: its one store. -/
def out1_2 (x0 x1 : Vec F S256x1024 .f32) : Vec F S256x1 .f32 :=
  View.canon [⟨rOut1, k1_pay1 (View.ld x0 rIn1) (View.ld x1 rIn1)⟩]

/-- The store covers the output block. -/
theorem cover1_2 (p0 : Vec F S256x1 .f32) (y : S256x1.Idx) :
    ∃ pc ∈ ([⟨rOut1, p0⟩] : List (View.Piece (Elt F) S256x1 .f32)), y ∈ pc.1.set :=
  View.cover_of_tiled [⟨rOut1, p0⟩] S256x1.size (by rfl) y

set_option maxHeartbeats 1000000 in
/-- The body on whole staging buffers, the inputs at contents `x0`, `x1`: it ends with the inputs as they were and the
    output's buffer at `out1_2 x0 x1`. -/
theorem sound_kernel1 (c : Dev nD) (E : Set ℕ) (i : grid1.Coords) (arg1 : Memref sig .tc .vmem S256x1024 .f32) (harg1 : arg1.IsWhole)
    (arg2 : Memref sig .tc .vmem S256x1024 .f32) (harg2 : arg2.IsWhole) (arg3 : Memref sig .tc .vmem S256x1 .f32) (harg3 : arg3.IsWhole)
    (x0 x1 : Vec F S256x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__pscore_kernel i arg1 harg1 arg2 harg2 arg3 harg3) K := by
  simp only [cc1__pscore_kernel_eq_skeleton]; unfold cc1__pscore_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second pallas_call on core `c`: the arrays as the region finds them; after the body each input's
    buffer at its block and the output's at `out1_2` of the input blocks; the untouched rest as invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- The output block is the payload itself: the one store covers the block and the loads read the blocks whole. -/
theorem out1_2_eq (x0 x1 : Vec F S256x1024 .f32) : out1_2 x0 x1 = k1_pay1 x0 x1 := by
  have hz : (![0, 0] : Fin 2 → Nat) = fun _ => 0 := by funext a; match a with | ⟨0, _⟩ => rfl | ⟨1, _⟩ => rfl
  unfold out1_2
  rw [View.canon_unit_zero hz]
  simp only [View.ld_unit_zero (S := S256x1024) hz]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.FrameK.Run.lean ====
/-
  The run of @main: a host reshape of the bias, the three pallas_calls, a host concatenate. The TensorCore's buffers are
  followed from the launch through every item (a host operation writes its result buffer; a region leaves its arrays at
  what its write-backs fold to and every other buffer as entered), each pallas_call's proof data is taken at the contents
  its region is entered with, and the items are composed: every weakly fair execution terminates with every unscoped
  buffer at the last contents. Read at the arguments this is the frame; read at the result it is the value.
-/
import proofs.«160421_j35055523070022_1_alg».proof.Proof.FrameK.Region0
import proofs.«160421_j35055523070022_1_alg».proof.Proof.FrameK.Region2
import proofs.«160421_j35055523070022_1_alg».proof.Proof.FrameK.Region1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- Core `c`'s buffers at launch. -/
abbrev W0 : Dev nD → Valuation τ sig (Elt F) := fun c b => (s₀ m ρ).mem ((c : Dev nD), b)
/-- After the host reshape (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, the output's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, the output's write-backs folded),
    every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the host concatenate (the end). -/
abbrev W5 : Dev nD → Valuation τ sig (Elt F) := fun c => StableHlo.after hostOps3 (W4 m ρ c)

/-! ## No item writes an argument -/

theorem after_hostOps0_of_ne (W : Valuation τ sig (Elt F)) (b : Ref sig .tc) (hb : b ≠ main_v0) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne hb))
theorem after_hostOps3_of_ne (W : Valuation τ sig (Elt F)) (b : Ref sig .tc) (hb : b ≠ main_v4) :
    StableHlo.after hostOps3 W (Proc.devRef .tc b) = W (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne hb))

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := after_hostOps3_of_ne _ main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := after_hostOps0_of_ne _ main_arg0 (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := after_hostOps3_of_ne _ main_arg1 (by decide)
    _ = W3 m ρ c (Proc.devRef .tc main_arg1) := W4_of_ne m ρ c main_arg1 (by decide)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := after_hostOps0_of_ne _ main_arg1 (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := after_hostOps3_of_ne _ main_arg2 (by decide)
    _ = W3 m ρ c (Proc.devRef .tc main_arg2) := (W4_arr m ρ c 0).trans (((dat2 (V3 m ρ) c).arrAt_in 0 rfl _).trans (A_eq2 (V3 m ρ) c 0))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := after_hostOps0_of_ne _ main_arg2 (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := after_hostOps3_of_ne _ main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := after_hostOps0_of_ne _ main_arg3 (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := after_hostOps3_of_ne _ main_arg4 (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := after_hostOps0_of_ne _ main_arg4 (by decide)
    _ = m ((c : Thread nD τ).loc main_arg4) := rfl

/-! ## The proof data family and the thread state -/

/-- No pallas_call has a prefetched table. -/
abbrev adm : (p : Fin 3) → (pcfgs (F := F) p).Adm := fun p => (cfgs p).toPCfg_adm
/-- Every pallas_call's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register. -/
abbrev Tₙ (c : Dev nD) : sProp 𝕄 := iprop(StableHlo.held (c : Thread nD τ) (Pipeline.ucRefs τ sig) (W5 m ρ c) ∗ ∃ r, prngReg c r)

/-! ## The regions as items -/

set_option backward.isDefEq.respectTransparency.types false in
/-- Region 0 over the thread state: entered with every unscoped buffer at `W1`, left with them at `W2`: its arrays are split
    out of the unscoped buffers and put back at what the write-backs leave; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (show Pipeline.ΦA spec0 c ⊢ (pdats m ρ 0 c).Φ 0 from hin0 (V1 m ρ) c)
    unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans (show Pipeline.ΦA spec0 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`: its arrays are split
    out of the unscoped buffers and put back at what the write-backs leave; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W3`, left with them at `W4`: its arrays are split
    out of the unscoped buffers and put back at what the write-backs leave; the generator register goes into the region's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]
    unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer at the last contents `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_main m ρ)

end Cert.Kernel.Hand

end
-- ==== Proof.FrameI.Blocks.lean ====
/-
  The blocks of the three pallas_calls' windows, read off the arrays as a region finds them, and the fact that an
  input window's staging buffer holds its block at every grid point, whether the pipeline fetched it there or kept
  it from the point before (the block index did not move).
-/
import proofs.«160421_j35055523070022_1_alg».proof.Proof.Gen.KernelIdeal.Launch
import proofs.«160421_j35055523070022_1_alg».proof.Proof.Gen.KernelIdeal.Skeleton
import proofs.«160421_j35055523070022_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the TensorCore's buffers when a region is entered
variable (V : (c : Dev nD) → (b : Ref sig .tc) → Buf (Elt F) ((c : Thread nD τ).loc b))

/-- Window `w` of pallas_call 0 at grid point `t`: its block of the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of pallas_call 0 holds its block at every point, for any proof data over the entry contents that
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 of pallas_call 0 holds its block at every point, for any proof data over the entry contents that
    leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 of pallas_call 0 holds its block at every point, for any proof data over the entry contents that
    leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Window `w` of pallas_call 1 at grid point `t`: its block of the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of pallas_call 1 holds its block at every point, for any proof data over the entry contents that
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 of pallas_call 1 holds its block at every point, for any proof data over the entry contents that
    leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window `w` of pallas_call 2 at grid point `t`: its block of the array the region finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 of pallas_call 2 holds its block at every point, for any proof data over the entry contents that
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 of pallas_call 2 holds its block at every point, for any proof data over the entry contents that
    leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The third pallas_call's column chunks -/

/-- Columns 64·j … 64·j + 63 of a 128 × 1024 block: the rectangle the body loads its `j`-th chunk through. -/
abbrev chunk2 (j : Fin 16) : Rect S128x1024 :=
  Rect.unit (s := S128x1024) (k2_off1 (BitVec.ofNat 32 j.val)) S128x64.size (k2_off1_inb j)

/-- The running sum of squares the body keeps in its scratch: zero, then one chunk's contribution added per step. -/
def acc2 (x0 x1 : Vec F S128x1024 .f32) : (j : ℕ) → j ≤ 16 → FVec F S128x128 .f32
  | 0, _ => k2_pay1
  | j + 1, h => k2_pay2 (View.ld x0 (chunk2 ⟨j, h⟩)) (View.ld x1 (chunk2 ⟨j, h⟩)) (acc2 x0 x1 j (Nat.le_of_succ_le h))

end Cert.KernelIdeal.Hand

end
-- ==== Proof.FrameI.Region0.lean ====
/-
  The body half of the frame of the first pallas_call: the matrix product accumulated over the four column blocks of
  the reduction axis in a scratch buffer the kernel carries from one grid point to the next. At a point with reduction
  index k = t % 4: at k = 0 the scratch is zeroed before the product of the two input blocks is added to it; at
  k = 1, 2, 3 the product is added to what the point before left; at k = 3 the output block is the scratch plus the
  bias row. The scratch after each point is stated in closed form (accAt0), and the region invariant holds it there.
-/
import proofs.«160421_j35055523070022_1_alg».proof.Proof.FrameI.Blocks
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the TensorCore's buffers when a region is entered
variable (V : (c : Dev nD) → (b : Ref sig .tc) → Buf (Elt F) ((c : Thread nD τ).loc b))

/-! ## The reduction index: where the scratch is zeroed and where the output is stored -/

/-- The body's first conditional: the reduction index of the point is 0. -/
abbrev firstK (i : grid0.Coords) : Prop :=
  (Scalar.cmpi .ne (Scalar.extui (Scalar.cmpi .eq (BitVec.ofNat 32 (i 1).val) 0#32)) 0#32) = 1#1
/-- It holds at the points t with t % 4 = 0. -/
theorem firstK_iff : ∀ t : Fin cfg0.N, firstK (grid0.coords t) ↔ t.val % 4 = 0 :=
  (by decide +kernel : ∀ t : Fin grid0.N, firstK (grid0.coords t) ↔ t.val % 4 = 0)

/-- The body's second conditional: the reduction index of the point is 3, the last. -/
abbrev lastK (i : grid0.Coords) : Prop := k0_cond2 i = 1#1
/-- It holds at the points t with t % 4 = 3. -/
theorem lastK_iff : ∀ t : Fin cfg0.N, lastK (grid0.coords t) ↔ t.val % 4 = 3 :=
  (by decide +kernel : ∀ t : Fin grid0.N, lastK (grid0.coords t) ↔ t.val % 4 = 3)

/-- The three input windows are live at every point. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last reduction index the output window is idle: nothing is stored into it -/
theorem idle0_3 : ∀ t : Fin cfg0.N, ¬lastK (grid0.coords t) → cfg0.idle 3 (grid0.coords t) = true := by decide +kernel
/-- and its block is not written back. -/
theorem noFlush0_3 : ∀ t : Fin cfg0.N, ¬lastK (grid0.coords t) → (cfg0.win 3).flush t = false := by decide +kernel
/-- At the last reduction index the output window is live. -/
theorem live0_3 : ∀ t : Fin cfg0.N, lastK (grid0.coords t) → cfg0.idle 3 (grid0.coords t) = false := by decide +kernel

/-! ## The scratch accumulator among the core's scoped buffers -/

/-- The accumulator, as the whole scoped buffer the kernel is passed beside its windows. -/
abbrev accM0 : Memref sig .tc .vmem S256x1024 .f32 := Memref.whole cc0_scratch0

/-- The core's scoped buffers other than this call's staging buffers, split at the accumulator; the others are
    never opened. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The other scoped buffers, unopened. -/
abbrev otherScoped0 (c : Dev nD) : sProp 𝕄 :=
  Pipeline.scopedRestBut (Ix := Unit) (Name := ℕ) (U := UR sig nD τ) (Lvl := ℕ) (Val := Elt F) spec0 c [cc0_scratch0]

/-- What the launch hands the region, with the accumulator as a memref owned at some contents. -/
theorem PhiA0_eq (c : Dev nD) :
    (Pipeline.ΦA spec0 c : sProp 𝕄)
      = iprop(iprop((∃ d, owns (c : Thread nD τ) accM0 fullShare d) ∗ otherScoped0 c) ∗ (∃ r, prngReg c r)) := by
  unfold Pipeline.ΦA; rw [scopedRest0_split]; simp only [accM0, owns_whole]; try rfl

/-- The offset the body's loads and stores are made at: the origin. -/
theorem origin0 : (![0, 0] : Fin 2 → ℕ) = fun _ => 0 := by funext a; fin_cases a <;> rfl

section WholeBuffer

variable {Val : EltTy → Type} {S : Shape} {e : EltTy} {sg : RefSig} {κ : Kind} {sp : Space}

/-- A buffer whose last store went through the whole-shape rectangle at the origin holds that store's value,
    whatever was stored before. -/
theorem read_writes_whole_last0 [∀ e, Nonempty (Val e)] (v : View sg κ sp S e) (f : v.ty.Contents Val)
    {off : Fin S.rank → Nat} (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- A load through the whole-shape rectangle at the origin of a whole memref held at contents x reads x. -/
theorem readAt_whole_unread0 (m : Memref sg κ sp S e) (hm : m.IsWhole) {off : Fin S.rank → Nat} (h : off = fun _ => 0)
    (inb : ∀ a, off a + S.size a ≤ S.size a) (x : S.Idx → Val e) :
    View.readAt Val m.view (Rect.unit off S.size inb).toLoadRect (hm.unread x) = x := by
  rw [View.readAt_eq_ld, hm.read_unread, View.ld_unit_zero h]

end WholeBuffer

/-! ## The body's run, case by case -/

set_option maxHeartbeats 1000000 in
/-- At reduction index 0: on whole memrefs, the inputs at their blocks, the idle output at contents handed back untouched,
    the accumulator at anything, the body runs to the continuation with the accumulator at the product added to the zero
    block (the zero block is stored first and read back). -/
theorem run_firstK (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (hc0 : firstK i) (hc1 : ¬lastK i)
    (x0 : Vec F S256x1024 .f32) (x1 : Vec F S1024x1024 .f32) (x2 : Vec F S1x1024 .f32) (xi3 : Vec F S256x1024 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare (k0_pay2 x0 x1 (k0_pay1 (F := F)))) -∗ K ⟨⟩))
      ⊢ wp frame (wpE (defs₀ (F := F)) Variants.none c none) E (cc0__matmul_kernel i arg2 harg2 arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS0
  ipureintro
  refine (read_writes_whole_last0 (S := S256x1024) arg6.view fs0 origin0 inb_S256x1024_S256x1024_0_0 _ _).trans ?_
  sl_unfold_words
  have e0 := readAt_whole_unread0 (S := S256x1024) arg2 harg2 origin0 inb_S256x1024_S256x1024_0_0 x0
  have e1 := readAt_whole_unread0 (S := S1024x1024) arg3 harg3 origin0 inb_S1024x1024_S1024x1024_0_0 x1
  have e2 := View.readCov_unit_zero (Val := Elt F) (S := S256x1024) arg6.view origin0 inb_S256x1024_S256x1024_0_0 (k0_pay1 (F := F))
  rw [e0, e1, e2]

set_option maxHeartbeats 1000000 in
/-- At reduction index 1 or 2: the accumulator, found at the contents xs0 the point before left, ends at the product
    added to xs0; the output stays idle. -/
theorem run_midK (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (hc0 : ¬firstK i) (hc1 : ¬lastK i)
    (x0 : Vec F S256x1024 .f32) (x1 : Vec F S1024x1024 .f32) (x2 : Vec F S1x1024 .f32) (xi3 : Vec F S256x1024 .f32)
    (xs0 : Vec F S256x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs0
        ∗ (iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare (k0_pay2 x0 x1 xs0)) -∗ K ⟨⟩))
      ⊢ wp frame (wpE (defs₀ (F := F)) Variants.none c none) E (cc0__matmul_kernel i arg2 harg2 arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg2.eq_unread hf0; obtain rfl := harg3.eq_unread hf1; obtain rfl := harg4.eq_unread hf2; obtain rfl := harg5.eq_unread hf3
  obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS0
  ipureintro
  refine (read_writes_whole_last0 (S := S256x1024) arg6.view _ origin0 inb_S256x1024_S256x1024_0_0 _ _).trans ?_
  try sl_unfold_words
  have e0 := readAt_whole_unread0 (S := S256x1024) arg2 harg2 origin0 inb_S256x1024_S256x1024_0_0 x0
  have e1 := readAt_whole_unread0 (S := S1024x1024) arg3 harg3 origin0 inb_S1024x1024_S1024x1024_0_0 x1
  have e2 := readAt_whole_unread0 (S := S256x1024) arg6 harg6 origin0 inb_S256x1024_S256x1024_0_0 xs0
  rw [e0, e1, e2]

set_option maxHeartbeats 1000000 in
/-- At reduction index 3: the accumulator ends at the product added to xs0, and the output block, found at anything,
    is left at the new accumulator plus the bias row. -/
theorem run_lastK (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (hc0 : ¬firstK i) (hc1 : lastK i)
    (x0 : Vec F S256x1024 .f32) (x1 : Vec F S1024x1024 .f32) (x2 : Vec F S1x1024 .f32)
    (xs0 : Vec F S256x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs0
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 x0 x1 xs0) x2)
            ∗ owns (c : Thread nD τ) arg6 fullShare (k0_pay2 x0 x1 xs0)) -∗ K ⟨⟩))
      ⊢ wp frame (wpE (defs₀ (F := F)) Variants.none c none) E (cc0__matmul_kernel i arg2 harg2 arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1; obtain rfl := harg4.eq_unread hf2
  obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (read_writes_whole_last0 (S := S256x1024) arg5.view f3 origin0 inb_S256x1024_S256x1024_0_0 _ _).trans ?_
    try sl_unfold_words
    have e0 := readAt_whole_unread0 (S := S256x1024) arg2 harg2 origin0 inb_S256x1024_S256x1024_0_0 x0
    have e1 := readAt_whole_unread0 (S := S1024x1024) arg3 harg3 origin0 inb_S1024x1024_S1024x1024_0_0 x1
    have e2 := readAt_whole_unread0 (S := S256x1024) arg6 harg6 origin0 inb_S256x1024_S256x1024_0_0 xs0
    have e3 := readAt_whole_unread0 (S := S1x1024) arg4 harg4 origin0 inb_S1x1024_S1x1024_0_0 x2
    rw [e0, e1, e2, e3, View.readCov_unit_zero (Val := Elt F) (S := S256x1024) arg6.view origin0 inb_S256x1024_S256x1024_0_0 (k0_pay2 x0 x1 xs0)]
  iexists _; isplitr
  swap; · iexact HS0
  ipureintro
  refine (read_writes_whole_last0 (S := S256x1024) arg6.view _ origin0 inb_S256x1024_S256x1024_0_0 _ _).trans ?_
  try sl_unfold_words
  have e0 := readAt_whole_unread0 (S := S256x1024) arg2 harg2 origin0 inb_S256x1024_S256x1024_0_0 x0
  have e1 := readAt_whole_unread0 (S := S1024x1024) arg3 harg3 origin0 inb_S1024x1024_S1024x1024_0_0 x1
  have e2 := readAt_whole_unread0 (S := S256x1024) arg6 harg6 origin0 inb_S256x1024_S256x1024_0_0 xs0
  rw [e0, e1, e2]

/-! ## The accumulator after each point -/

/-- What the scratch accumulator holds after the body at position n: at reduction index 0 the product of the point's
    two input blocks added to the zero block, elsewhere added to what the point before left. -/
def accAt0 (c : Dev nD) : (n : ℕ) → n < cfg0.N → Vec F S256x1024 .f32
  | 0, hn => k0_pay2 (iblk0 V c 0 ⟨0, hn⟩) (iblk0 V c 1 ⟨0, hn⟩) (k0_pay1 (F := F))
  | n + 1, hn =>
    if (n + 1) % 4 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (accAt0 c n (Nat.lt_of_succ_lt hn))

/-- At reduction index 0 the accumulation starts afresh from the zero block. -/
theorem accAt0_reset (c : Dev nD) (n : ℕ) (hn : n < cfg0.N) (h : n % 4 = 0) :
    accAt0 V c n hn = k0_pay2 (iblk0 V c 0 ⟨n, hn⟩) (iblk0 V c 1 ⟨n, hn⟩) (k0_pay1 (F := F)) := by
  cases n with
  | zero => rfl
  | succ n => exact if_pos h

/-- Elsewhere it goes on from the point before. -/
theorem accAt0_step (c : Dev nD) (n : ℕ) (hn : n + 1 < cfg0.N) (h : ¬ (n + 1) % 4 = 0) :
    accAt0 V c (n + 1) hn = k0_pay2 (iblk0 V c 0 ⟨n + 1, hn⟩) (iblk0 V c 1 ⟨n + 1, hn⟩) (accAt0 V c n (Nat.lt_of_succ_lt hn)) :=
  if_neg h

/-- The same two facts at a grid point. -/
theorem accAt0_first (c : Dev nD) (t : Fin cfg0.N) (h0 : t.val % 4 = 0) :
    accAt0 V c t.val t.isLt = k0_pay2 (iblk0 V c 0 t) (iblk0 V c 1 t) (k0_pay1 (F := F)) :=
  accAt0_reset V c t.val t.isLt h0

theorem accAt0_next (c : Dev nD) (t : Fin cfg0.N) (h0 : ¬ t.val % 4 = 0) :
    accAt0 V c t.val t.isLt = k0_pay2 (iblk0 V c 0 t) (iblk0 V c 1 t)
      (accAt0 V c (t.val - 1) (Nat.lt_of_le_of_lt (Nat.sub_le _ _) t.isLt)) := by
  obtain ⟨n, hn⟩ := t
  cases n with
  | zero => exact absurd (Nat.zero_mod _) h0
  | succ n => exact accAt0_step V c n hn h0

/-! ## The region invariant -/

/-- Before position n: before the first point what the launch hands over (the accumulator at anything); afterwards the
    accumulator at what the point before left, the other scoped buffers unopened, the generator register at some state. -/
def PhiS0 (c : Dev nD) : (n : ℕ) → n ≤ cfg0.N → sProp 𝕄
  | 0, _ => Pipeline.ΦA spec0 c
  | n + 1, hn => iprop(iprop(owns (c : Thread nD τ) accM0 fullShare (accAt0 V c n hn) ∗ otherScoped0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) accM0 fullShare (accAt0 V c n hn) ∗ otherScoped0 c) ∗ (∃ r, prngReg c r)) := rfl

theorem PhiS0_pos (c : Dev nD) (n : ℕ) (h : n ≤ cfg0.N) (hz : n ≠ 0) :
    PhiS0 V c n h = iprop(iprop(owns (c : Thread nD τ) accM0 fullShare (accAt0 V c (n - 1) (by omega)) ∗ otherScoped0 c) ∗ (∃ r, prngReg c r)) := by
  cases n with
  | zero => exact absurd rfl hz
  | succ n => rfl

/-! ## The proof data -/

/-- The proof data of the first pallas_call on core c: the arrays as the region finds them; after the body at point t
    each input's buffer at its block, the output's at the accumulator after t plus the bias row (consulted only where
    the output is stored: at reduction index 3); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accAt0 V c t.val t.isLt) (iblk0 V c 2 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
/-- Where the output is stored it is the accumulator after the point plus the bias row. -/
theorem after0_3 (c : Dev nD) (t : Fin cfg0.N) (h : t.val % 4 = 3) :
    (dat0 V c).after 3 t = k0_pay3 (accAt0 V c t.val t.isLt) (iblk0 V c 2 t) := by dsimp only [dat0]

/-- Each input's current staging buffer holds its block at every point, fetched there or kept. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- Each window's current staging memref at point t, as the pipeline passes it to the body. -/
abbrev stg0 (t : Fin cfg0.N) : Memref sig .tc .vmem S256x1024 .f32 := win0_0.stage (cfg0.slots t 0)
abbrev stg1 (t : Fin cfg0.N) : Memref sig .tc .vmem S1024x1024 .f32 := win0_1.stage (cfg0.slots t 1)
abbrev stg2 (t : Fin cfg0.N) : Memref sig .tc .vmem S1x1024 .f32 := win0_2.stage (cfg0.slots t 2)
abbrev stg3 (t : Fin cfg0.N) : Memref sig .tc .vmem S256x1024 .f32 := win0_3.stage (cfg0.slots t 3)

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (stg0 t) fullShare ((dat0 V c).before 0 t d))
    ∗ (∃ d, owns (c : Thread nD τ) (stg1 t) fullShare ((dat0 V c).before 1 t d))
    ∗ (∃ d, owns (c : Thread nD τ) (stg2 t) fullShare ((dat0 V c).before 2 t d))
    ∗ (∃ d, owns (c : Thread nD τ) (stg3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the reduction index says which case the point is in;
    the invariant hands the body the accumulator at what the point before left (at anything at the first point) and takes
    it back at this point's contents; away from reduction index 3 the output's buffer goes back untouched, at 3 it is
    left at the accumulator plus the bias row; nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (stg0 t) fullShare ((dat0 V c).after 0 t) from by
    unfold Dat.leavesExact; rw [live0_0 t], after0_0]
  rw [show (dat0 V c).leavesExact 1 t = owns (c : Thread nD τ) (stg1 t) fullShare ((dat0 V c).after 1 t) from by
    unfold Dat.leavesExact; rw [live0_1 t], after0_1]
  rw [show (dat0 V c).leavesExact 2 t = owns (c : Thread nD τ) (stg2 t) fullShare ((dat0 V c).after 2 t) from by
    unfold Dat.leavesExact; rw [live0_2 t], after0_2]
  have hN : t.val < 8 := lt_of_lt_of_eq t.isLt (show cfg0.N = 8 from N_0)
  by_cases h0 : t.val % 4 = 0
  · have h1 : ¬ t.val % 4 = 3 := by omega
    have hc0 : firstK (grid0.coords t) := (firstK_iff t).mpr h0
    have hc1 : ¬lastK (grid0.coords t) := fun h => h1 ((lastK_iff t).mp h)
    rw [Dat.leavesExact_idle (dat0 V c) 3 t (idle0_3 t hc1) (noFlush0_3 t hc1)]
    rw [accAt0_first V c t h0]
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩, ⟨%d3, H3⟩⟩
      iapply (run_firstK c (grid0.coords t) _ _ _ _ _ _ _ _ _ _ hc0 hc1 (iblk0 V c 0 t) (iblk0 V c 1 t) (iblk0 V c 2 t) _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply (run_firstK c (grid0.coords t) _ _ _ _ _ _ _ _ _ _ hc0 hc1 (iblk0 V c 0 t) (iblk0 V c 1 t) (iblk0 V c 2 t) _ Set.univ _)
      isplitl [H0]; · iexact H0
      isplitl [H1]; · iexact H1
      isplitl [H2]; · iexact H2
      isplitl [H3]; · iexact H3
      isplitl [HS0]; · iexists _; iexact HS0
      iintro ⟨H0, H1, H2, H3, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬firstK (grid0.coords t) := fun h => h0 ((firstK_iff t).mp h)
    rw [accAt0_next V c t h0]
    rw [PhiS0_castSucc V c t, PhiS0_pos V c _ _ hz]
    by_cases h1 : t.val % 4 = 3
    · have hc1 : lastK (grid0.coords t) := (lastK_iff t).mpr h1
      rw [show (dat0 V c).leavesExact 3 t = owns (c : Thread nD τ) (stg3 t) fullShare ((dat0 V c).after 3 t) from by
        unfold Dat.leavesExact; rw [live0_3 t hc1], after0_3 V c t h1, accAt0_next V c t h0]
      iintro ⟨⟨⟨HS0, Hr⟩, Hg⟩, Ho, ⟨%d0, H0⟩, ⟨%d1, H1⟩, ⟨%d2, H2⟩, ⟨%d3, H3⟩⟩
      iapply (run_lastK c (grid0.coords t) _ _ _ _ _ _ _ _ _ _ hc0 hc1 (iblk0 V c 0 t) (iblk0 V c 1 t) (iblk0 V c 2 t) _ Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      iexact H3
    · have hc1 : ¬lastK (grid0.coords t) := fun h => h1 ((lastK_iff t).mp h)
      rw [Dat.leavesExact_idle (dat0 V c) 3 t (idle0_3 t hc1) (noFlush0_3 t hc1)]
      iintro ⟨⟨⟨HS0, Hr⟩, Hg⟩, Ho, ⟨%d0, H0⟩, ⟨%d1, H1⟩, ⟨%d2, H2⟩, ⟨%d3, H3⟩⟩
      iapply (run_midK c (grid0.coords t) _ _ _ _ _ _ _ _ _ _ hc0 hc1 (iblk0 V c 0 t) (iblk0 V c 1 t) (iblk0 V c 2 t) _ _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the launch's form back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 8 := N_0; omega)

end Cert.KernelIdeal.Hand

end
-- ==== Proof.FrameI.Region2.lean ====
/-
  The body half of the frame of the third pallas_call (the negative scores): within each grid point the body zeroes
  a scratch accumulator, adds to it the sixteen column chunks' sums of squared positive parts, and stores
  0 - sqrt(accumulator) into the output window's buffer.
-/
import proofs.«160421_j35055523070022_1_alg».proof.Proof.FrameI.Blocks
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the TensorCore's buffers when a region is entered
variable (V : (c : Dev nD) → (b : Ref sig .tc) → Buf (Elt F) ((c : Thread nD τ).loc b))

/-- What the body leaves in the output window's buffer, from the two input blocks (the first the block of the
    negatives, the second the block of the embeddings): 0 - sqrt of the sum, over the sixteen column chunks, of the
    squared positive parts of the differences. -/
def out2_2 (x0 x1 : Vec F S128x1024 .f32) : Vec F S128x128 .f32 :=
  k2_pay25 (acc2 x0 x1 16 (Nat.le_refl 16))

theorem out2_2_eq (x0 x1 : Vec F S128x1024 .f32) : out2_2 x0 x1 = k2_pay25 (acc2 x0 x1 16 (Nat.le_refl 16)) := rfl

/-! ## The sixteen chunk steps are one step

The printed body spells a chunk's contribution in several ways (the subtraction, the zero vector or the positive
part computed before a statement boundary and handed on); each is the same function of the two loaded chunks and
the running sum. -/
section ChunkSteps
variable (a b : Vec F S128x64 .f32) (p : Vec F S128x128 .f32)

theorem k2_step5_eq : k2_pay5 (k2_pay3 a b) (k2_pay4 (F := F)) p = k2_pay2 a b p := rfl
theorem k2_step6_eq : k2_pay6 a b p = k2_pay2 a b p := rfl
theorem k2_step9_eq : k2_pay9 (k2_pay7 b) (k2_pay8 a) p = k2_pay2 a b p := rfl
theorem k2_step10_eq : k2_pay10 a b p = k2_pay2 a b p := rfl
theorem k2_step11_eq : k2_pay11 a b p = k2_pay2 a b p := rfl
theorem k2_step12_eq : k2_pay12 a b p = k2_pay2 a b p := rfl
theorem k2_step13_eq : k2_pay13 a b p = k2_pay2 a b p := rfl
theorem k2_step14_eq : k2_pay14 a b p = k2_pay2 a b p := rfl
theorem k2_step15_eq : k2_pay15 a b p = k2_pay2 a b p := rfl
theorem k2_step17_eq : k2_pay17 (k2_pay16 a b p) = k2_pay2 a b p := rfl
theorem k2_step18_eq : k2_pay18 a b p = k2_pay2 a b p := rfl
theorem k2_step20_eq : k2_pay20 (k2_pay19 a b p) = k2_pay2 a b p := rfl
theorem k2_step21_eq : k2_pay21 a b p = k2_pay2 a b p := rfl
theorem k2_step23_eq : k2_pay23 (k2_pay22 a b) p = k2_pay2 a b p := rfl
theorem k2_step24_eq : k2_pay24 a b p = k2_pay2 a b p := rfl

end ChunkSteps

/-- The zero offsets of a rank-two rectangle, spelt as a constant function. -/
theorem zeroOff_S128x128 : (![0, 0] : Fin S128x128.rank → ℕ) = fun _ => 0 := by
  funext a; fin_cases a <;> rfl

/-! ## The body's triple -/

set_option maxHeartbeats 2000000 in
/-- The body on whole memrefs, the two inputs' at read contents `x0`, `x1`, the output's and the scratch
    accumulator's at anything, runs to the continuation holding the inputs' as they were, the output's at
    `out2_2 x0 x1` and the accumulator's at some contents. Every load of the accumulator comes after a store that
    covers it, so it reads that store's payload; the seventeen payloads then chain into the running sum. -/
theorem sound_kernel2 (c : Dev nD) (E : Set ℕ) (i : grid2.Coords)
    (arg2 : Memref sig .tc .vmem S128x1024 .f32) (harg2 : arg2.IsWhole)
    (arg3 : Memref sig .tc .vmem S128x1024 .f32) (harg3 : arg3.IsWhole)
    (arg4 : Memref sig .tc .vmem S128x128 .f32) (harg4 : arg4.IsWhole)
    (arg5 : Memref sig .tc .vmem S128x128 .f32) (harg5 : arg5.IsWhole)
    (x0 x1 : Vec F S128x1024 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (out2_2 x0 x1) ∗ (∃ d, owns (c : Thread nD τ) arg5 fullShare d)) -∗ K ⟨⟩))
      ⊢ wp frame (wpE (defs₀ (F := F)) Variants.none c none) E (cc2__nscore_kernel i arg2 harg2 arg3 harg3 arg4 harg4 arg5 harg5) K := by
  simp only [cc2__nscore_kernel_eq_skeleton]; unfold cc2__nscore_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    -- the one store into the output's buffer covers it: the buffer reads as the store's payload
    refine (View.read_writes_eq_canon _ _ _ (fun y => ⟨_, List.mem_singleton_self _, View.mem_set_unit_zero zeroOff_S128x128 inb_S128x128_S128x128_0_0 y⟩)).trans ?_
    refine (View.canon_unit_zero zeroOff_S128x128 inb_S128x128_S128x128_0_0 _).trans ?_
    -- each load of the accumulator reads the payload of the store just before it
    sl_unfold_run_names
    simp only [View.readCov_cons_toLoadRect]
    -- the sixteen steps are one step, and the chain is the running sum
    simp only [k2_step5_eq, k2_step6_eq, k2_step9_eq, k2_step10_eq, k2_step11_eq, k2_step12_eq, k2_step13_eq, k2_step14_eq, k2_step15_eq, k2_step17_eq, k2_step18_eq,
      k2_step20_eq, k2_step21_eq, k2_step23_eq, k2_step24_eq]
    rfl
  iexists _, _; isplitr
  swap; · iexact H3
  ipureintro; rfl

/-! ## The pipeline's proof data -/

/-- The proof data of the third pallas_call on core `c`: the arrays as the region finds them; after the body at point
    `t` each input's buffer at its block and the output's at `out2_2` of the two input blocks; the invariant the scoped
    buffers that are no staging buffer (the scratch accumulator among them) at some contents and the generator
    register at some state; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by
  dsimp only [dat2]

/-- Each input's current staging buffer holds its block at every point, fetched there or kept from the point before. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The invariant, with the scratch accumulator in the open -/

/-- The accumulator as the body is handed it: the whole scoped buffer. -/
abbrev scM2 : Memref sig .tc .vmem S128x128 .f32 := Memref.whole cc2_scratch0

/-- The region's invariant is the accumulator owned at some contents, the other scoped buffers that are no staging
    buffer of this call (unopened), and the generator register at some state. -/
theorem PhiA2_eq (c : Dev nD) :
    (Pipeline.ΦA spec2 c : sProp 𝕄)
      = iprop(((∃ d, owns (c : Thread nD τ) scM2 fullShare d)
          ∗ Pipeline.scopedRestBut (Ix := Unit) (Name := ℕ) (U := UR sig nD τ) (Lvl := ℕ) (Val := Elt F) spec2 c [cc2_scratch0])
          ∗ (∃ r, prngReg c r)) := by
  unfold Pipeline.ΦA
  rw [Pipeline.scopedRest_split_of_list spec2 c [cc2_scratch0] (by decide) (by decide)]
  simp only [scM2, owns_whole, BI.bigSepL_singleton]; try rfl

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, the invariant lends the accumulator at some
    contents and takes it back at some contents; the rest of the invariant and what the core owes pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2,
    show (dat2 V c).Φ t.castSucc = Pipeline.ΦA spec2 c from rfl, PhiA2_eq]
  iintro ⟨⟨⟨HS, Hrest⟩, Hg⟩, Ho, ⟨%d0, H0⟩, ⟨%d1, H1⟩, ⟨%d2, H2⟩⟩
  iapply (sound_kernel2 c Set.univ _ _ _ _ _ _ _ _ _ (iblk2 V c 0 t) (iblk2 V c 1 t) _)
  isplitl [H0]; · iexact H0
  isplitl [H1]; · iexact H1
  isplitl [H2]; · iexists _; iexact H2
  isplitl [HS]; · iexact HS
  iintro ⟨H0, H1, H2, HS⟩
  isplitl [HS Hrest Hg]
  · isplitl [HS Hrest]
    · isplitl [HS]; · iexact HS
      iexact Hrest
    iexact Hg
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.FrameI.Region1.lean ====
/-
  The second pallas_call (the positive score): what its body leaves at a grid point. The body loads the block of
  `p` and the block of the embedding whole, and stores into the output block [256, 1] the one value
  0 - √(Σ_e max(p - emb, 0)²) per row; it keeps nothing between points and uses no scratch, so the region's invariant is
  the untouched rest.
-/
import proofs.«160421_j35055523070022_1_alg».proof.Proof.FrameI.Blocks
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The whole-block rectangles the body loads and stores through. -/
abbrev rIn1 : Rect S256x1024 := Rect.unit (s := S256x1024) ![0, 0] S256x1024.size inb_S256x1024_S256x1024_0_0
abbrev rOut1 : Rect S256x1 := Rect.unit (s := S256x1) ![0, 0] S256x1.size inb_S256x1_S256x1_0_0

/-- The output block after the body, from the two input blocks: its one store. -/
def out1_2 (x0 x1 : Vec F S256x1024 .f32) : Vec F S256x1 .f32 :=
  View.canon [⟨rOut1, k1_pay1 (View.ld x0 rIn1) (View.ld x1 rIn1)⟩]

/-- The store covers the output block. -/
theorem cover1_2 (p0 : Vec F S256x1 .f32) (y : S256x1.Idx) :
    ∃ pc ∈ ([⟨rOut1, p0⟩] : List (View.Piece (Elt F) S256x1 .f32)), y ∈ pc.1.set :=
  View.cover_of_tiled [⟨rOut1, p0⟩] S256x1.size (by rfl) y

set_option maxHeartbeats 1000000 in
/-- The body on whole staging buffers, the inputs at contents `x0`, `x1`: it ends with the inputs as they were and the
    output's buffer at `out1_2 x0 x1`. -/
theorem sound_kernel1 (c : Dev nD) (E : Set ℕ) (i : grid1.Coords) (arg1 : Memref sig .tc .vmem S256x1024 .f32) (harg1 : arg1.IsWhole)
    (arg2 : Memref sig .tc .vmem S256x1024 .f32) (harg2 : arg2.IsWhole) (arg3 : Memref sig .tc .vmem S256x1 .f32) (harg3 : arg3.IsWhole)
    (x0 x1 : Vec F S256x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__pscore_kernel i arg1 harg1 arg2 harg2 arg3 harg3) K := by
  simp only [cc1__pscore_kernel_eq_skeleton]; unfold cc1__pscore_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second pallas_call on core `c`: the arrays as the region finds them; after the body each input's
    buffer at its block and the output's at `out1_2` of the input blocks; the untouched rest as invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- The output block is the payload itself: the one store covers the block and the loads read the blocks whole. -/
theorem out1_2_eq (x0 x1 : Vec F S256x1024 .f32) : out1_2 x0 x1 = k1_pay1 x0 x1 := by
  have hz : (![0, 0] : Fin 2 → Nat) = fun _ => 0 := by funext a; match a with | ⟨0, _⟩ => rfl | ⟨1, _⟩ => rfl
  unfold out1_2
  rw [View.canon_unit_zero hz]
  simp only [View.ld_unit_zero (S := S256x1024) hz]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FrameI.Run.lean ====
/-
  The run of @main: a host reshape of the bias, the three pallas_calls, a host concatenate. The TensorCore's buffers are
  followed from the launch through every item (a host operation writes its result buffer; a region leaves its arrays at
  what its write-backs fold to and every other buffer as entered), each pallas_call's proof data is taken at the contents
  its region is entered with, and the items are composed: every weakly fair execution terminates with every unscoped
  buffer at the last contents. Read at the arguments this is the frame; read at the result it is the value.
-/
import proofs.«160421_j35055523070022_1_alg».proof.Proof.FrameI.Region0
import proofs.«160421_j35055523070022_1_alg».proof.Proof.FrameI.Region2
import proofs.«160421_j35055523070022_1_alg».proof.Proof.FrameI.Region1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- Core `c`'s buffers at launch. -/
abbrev W0 : Dev nD → Valuation τ sig (Elt F) := fun c b => (s₀ m ρ).mem ((c : Dev nD), b)
/-- After the host reshape (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, the output's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, the output's write-backs folded),
    every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the host concatenate (the end). -/
abbrev W5 : Dev nD → Valuation τ sig (Elt F) := fun c => StableHlo.after hostOps3 (W4 m ρ c)

/-! ## No item writes an argument -/

theorem after_hostOps0_of_ne (W : Valuation τ sig (Elt F)) (b : Ref sig .tc) (hb : b ≠ main_v0) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne hb))
theorem after_hostOps3_of_ne (W : Valuation τ sig (Elt F)) (b : Ref sig .tc) (hb : b ≠ main_v4) :
    StableHlo.after hostOps3 W (Proc.devRef .tc b) = W (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne hb))

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := after_hostOps3_of_ne _ main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := after_hostOps0_of_ne _ main_arg0 (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := after_hostOps3_of_ne _ main_arg1 (by decide)
    _ = W3 m ρ c (Proc.devRef .tc main_arg1) := W4_of_ne m ρ c main_arg1 (by decide)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := after_hostOps0_of_ne _ main_arg1 (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := after_hostOps3_of_ne _ main_arg2 (by decide)
    _ = W3 m ρ c (Proc.devRef .tc main_arg2) := (W4_arr m ρ c 0).trans (((dat2 (V3 m ρ) c).arrAt_in 0 rfl _).trans (A_eq2 (V3 m ρ) c 0))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := after_hostOps0_of_ne _ main_arg2 (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := after_hostOps3_of_ne _ main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := after_hostOps0_of_ne _ main_arg3 (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := after_hostOps3_of_ne _ main_arg4 (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := after_hostOps0_of_ne _ main_arg4 (by decide)
    _ = m ((c : Thread nD τ).loc main_arg4) := rfl

/-! ## The proof data family and the thread state -/

/-- No pallas_call has a prefetched table. -/
abbrev adm : (p : Fin 3) → (pcfgs (F := F) p).Adm := fun p => (cfgs p).toPCfg_adm
/-- Every pallas_call's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register. -/
abbrev Tₙ (c : Dev nD) : sProp 𝕄 := iprop(StableHlo.held (c : Thread nD τ) (Pipeline.ucRefs τ sig) (W5 m ρ c) ∗ ∃ r, prngReg c r)

/-! ## The regions as items -/

set_option backward.isDefEq.respectTransparency.types false in
/-- Region 0 over the thread state: entered with every unscoped buffer at `W1`, left with them at `W2`: its arrays are split
    out of the unscoped buffers and put back at what the write-backs leave; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (show Pipeline.ΦA spec0 c ⊢ (pdats m ρ 0 c).Φ 0 from hin0 (V1 m ρ) c)
    unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans (show Pipeline.ΦA spec0 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`: its arrays are split
    out of the unscoped buffers and put back at what the write-backs leave; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W3`, left with them at `W4`: its arrays are split
    out of the unscoped buffers and put back at what the write-backs leave; the generator register goes into the region's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]
    unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer at the last contents `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_main m ρ)

end Cert.KernelIdeal.Hand

end
-- ==== Proof.Spec.lean ====
/-
  The mathematics of the computation, over the extended reals and literal shapes: the linear embedding
  emb[b, e] = Σ_d vf[b, d] · W[e, d] + bias[e], the positive score -√(Σ_e max(p[b, e] - emb[b, e], 0)²) of row b against its
  own row of p, the negative score -√(Σ_e max(n[k, e] - emb[b, e], 0)²) of row b against every row k of n, and the result
  row b = (positive score, negative scores of row b).
-/
import Idealize.ShloMosaic.PureOps.Ideal
import Idealize.ShloMosaic.Lib.ValueIdx

noncomputable section

open scoped BigOperators

namespace Cert.Spec

open Idealize.ShloMosaic Idealize.ShloMosaic.ValueIdx

/-- The embedding of row `b` at feature `e`: the inner product of row `b` of `vf` with row `e` of `W`, plus the bias. -/
def emb (vf : (⟨2, ![512, 4096]⟩ : Shape).Idx → EReal) (W : (⟨2, ![1024, 4096]⟩ : Shape).Idx → EReal)
    (bias : (⟨1, ![1024]⟩ : Shape).Idx → EReal) : (⟨2, ![512, 1024]⟩ : Shape).Idx → EReal :=
  fun i => (∑ d : Fin 4096, vf (ix2 (i 0) d) * W (ix2 (i 1) d)) + bias (ix1 (i 1))

/-- The squared positive part of a difference. -/
def sqPos (x y : EReal) : EReal := max (x - y) 0 * max (x - y) 0

/-- The positive score of row `b`: minus the norm of the positive part of `p[b, :] - e[b, :]`. -/
def pscore (p e : (⟨2, ![512, 1024]⟩ : Shape).Idx → EReal) : (⟨2, ![512, 1]⟩ : Shape).Idx → EReal :=
  fun i => -Ideal.sqrt (∑ k : Fin 1024, sqPos (p (ix2 (i 0) k)) (e (ix2 (i 0) k)))

/-- The negative score of row `b` against row `k` of `n`: minus the norm of the positive part of `n[k, :] - e[b, :]`. -/
def nscore (n e : (⟨2, ![512, 1024]⟩ : Shape).Idx → EReal) : (⟨2, ![512, 512]⟩ : Shape).Idx → EReal :=
  fun i => -Ideal.sqrt (∑ k : Fin 1024, sqPos (n (ix2 (i 1) k)) (e (ix2 (i 0) k)))

end Cert.Spec

end
-- ==== Proof.ValueI.Emb.lean ====
/-
  The value of the first kernel's output array over the extended reals: the array the matrix-product kernel
  writes is the linear embedding emb[b, e] = Σ_d vf[b, d] · W[e, d] + bias[e] of the argument arrays.

  The grid is 2 × 4, point t = 4·i + k.  At point t the body reads block (i, k) of vf (256 rows, 1024 columns) and
  block (0, k) of W (all 1024 rows, 1024 columns), and adds to its running block the products' sums over the 1024
  columns; the running block is zero before the first point of a row block, and after its fourth point, with the
  bias row added, it is written back as rows 256·i … 256·i + 255 of the output.  So entry (256·i + r, e) is
  Σ_{k<4} Σ_{d<1024} vf[256·i + r, 1024·k + d] · W[e, 1024·k + d] + bias[e], and the double sum is the sum over all
  4096 columns.  Only commutativity and associativity of + are used.
-/
import proofs.«160421_j35055523070022_1_alg».proof.Proof.Gen.KernelIdeal.Launch
import proofs.«160421_j35055523070022_1_alg».proof.Proof.Gen.KernelIdeal.Skeleton
import proofs.«160421_j35055523070022_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«160421_j35055523070022_1_alg».proof.Proof.FrameI.Blocks
import proofs.«160421_j35055523070022_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Value0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand
open Idealize.ShloMosaic.ValueIdx
open scoped BigOperators

/-! ## The body's three stored values at an entry -/

/-- The value the body resets its running block to is zero everywhere. -/
theorem reset_apply (r : Fin 256) (e : Fin 1024) : (k0_pay1 (F := Ideal)) (ix2 r e) = 0 := by
  unfold k0_pay1
  rw [shapeCast_self]
  exact Ideal.ofBits_zero_f32

/-- The left factor of the product at output entry `(r, e)` and contraction position `q` sits in row `r` … -/
theorem lhs_row (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
/-- … and in the column the contraction position names; -/
theorem lhs_col (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
/-- the right factor sits in row `e` of the weight block (the product contracts the columns of both) … -/
theorem rhs_row (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
/-- … and in the same column. -/
theorem rhs_col (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- The block product into the zero accumulator, at entry `(r, e)`: the inner product of row `r` of the left block
    with row `e` of the right block. -/
theorem blockProduct_apply {φ₁ φ₂ : FTy} (x : FVec Ideal S256x1024 φ₁) (w : FVec Ideal S1024x1024 φ₂) (r : Fin 256) (e : Fin 1024) :
    matmul dot_S256x1024_S1024x1024_S256x1024_1_1_0_0_n_n none x w (constant S256x1024 .f32 0x00000000#32) (ix2 r e)
      = ∑ d : Fin 1024, x (ix2 r d) * w (ix2 e d) := by
  show FloatOps.matmul _ none x w (constant _ .f32 0x00000000#32) (ix2 r e) = _
  rw [Ideal.matmul_constant_zero_apply, ← Equiv.sum_comp (contrEquiv1 dot_S256x1024_S1024x1024_S256x1024_1_1_0_0_n_n 1024 rfl rfl).symm]
  refine Finset.sum_congr rfl fun d _ => ?_
  have hd := contrEquiv1_symm_val dot_S256x1024_S1024x1024_S256x1024_1_1_0_0_n_n 1024 rfl rfl d
  have el : dot_S256x1024_S1024x1024_S256x1024_1_1_0_0_n_n.lhsIdx (ix2 r e) ((contrEquiv1 dot_S256x1024_S1024x1024_S256x1024_1_1_0_0_n_n 1024 rfl rfl).symm d) = ix2 r d := funext fun a => Fin.ext (by
    match a with
    | ⟨0, _⟩ => exact lhs_row _ _
    | ⟨1, _⟩ => exact (lhs_col _ _).trans hd)
  have er : dot_S256x1024_S1024x1024_S256x1024_1_1_0_0_n_n.rhsIdx (ix2 r e) ((contrEquiv1 dot_S256x1024_S1024x1024_S256x1024_1_1_0_0_n_n 1024 rfl rfl).symm d) = ix2 e d := funext fun a => Fin.ext (by
    match a with
    | ⟨0, _⟩ => exact rhs_row _ _
    | ⟨1, _⟩ => exact (rhs_col _ _).trans hd)
  rw [el, er]

/-- One step of the body: the running block plus the block product (the change of format before the product is the
    identity on extended reals). -/
theorem step_apply (x : Vec Ideal S256x1024 .f32) (w : Vec Ideal S1024x1024 .f32) (a : Vec Ideal S256x1024 .f32)
    (r : Fin 256) (e : Fin 1024) :
    k0_pay2 x w a (ix2 r e) = a (ix2 r e) + ∑ d : Fin 1024, x (ix2 r d) * w (ix2 e d) := by
  unfold k0_pay2
  rw [shapeCast_self]
  exact congrArg (a (ix2 r e) + ·)
    (blockProduct_apply (truncf .bf16 x bitsLt_bf16_f32 : FVec Ideal S256x1024 .bf16) (truncf .bf16 w bitsLt_bf16_f32 : FVec Ideal S1024x1024 .bf16) r e)

/-- The value written back: the running block plus the bias row, the same row for every row of the block. -/
theorem out_apply (a : Vec Ideal S256x1024 .f32) (b : Vec Ideal S1x1024 .f32) (r : Fin 256) (e : Fin 1024) :
    k0_pay3 a b (ix2 r e) = a (ix2 r e) + b (ix2 (0 : Fin 1) e) := by
  unfold k0_pay3
  rw [shapeCast_self]
  exact congrArg (a (ix2 r e) + ·) (broadcastTo_1b_ab_apply b broadcasts_S1x1024_S256x1024 r e)

/-! ## The blocks the body reads, as entries of the argument arrays -/

-- the contents of the TensorCore's buffers when the region is entered
variable (V : (c : Dev nD) → (b : Ref sig .tc) → Buf (Elt Ideal) ((c : Thread nD τ).loc b))

/-- The block indices over the grid: at point `t = 4·i + k` the left operand's block is `(i, k)`, the weight's is
    `(0, k)`, the bias row's is `(0, 0)` and the output's is `(i, 0)`. -/
theorem block_index : ∀ t : Fin cfg0.N,
    win0_0.index t (0 : Fin 2) = t.val / 4 ∧ win0_0.index t (1 : Fin 2) = t.val % 4
    ∧ win0_1.index t (0 : Fin 2) = 0 ∧ win0_1.index t (1 : Fin 2) = t.val % 4
    ∧ win0_2.index t (0 : Fin 2) = 0 ∧ win0_2.index t (1 : Fin 2) = 0
    ∧ win0_3.index t (0 : Fin 2) = t.val / 4 ∧ win0_3.index t (1 : Fin 2) = 0 :=
  (by decide +kernel : ∀ t : Fin grid0.N, _)

/-- The left operand's block at point `t`, the weight's and the bias row's, as vectors of their literal shapes. -/
abbrev lhsAt (c : Dev nD) (t : Fin cfg0.N) : Vec Ideal S256x1024 .f32 := iblk0 V c 0 t
abbrev rhsAt (c : Dev nD) (t : Fin cfg0.N) : Vec Ideal S1024x1024 .f32 := iblk0 V c 1 t
abbrev biasAt (c : Dev nD) (t : Fin cfg0.N) : Vec Ideal S1x1024 .f32 := iblk0 V c 2 t

/-- The argument arrays the kernel reads, and the bias as the row the host reshaped it to, as functions on indices of
    their literal shapes. -/
abbrev vfArr (c : Dev nD) : S512x4096.Idx → EReal := V c main_arg0
abbrev wArr (c : Dev nD) : S1024x4096.Idx → EReal := V c main_arg3
abbrev biasArr (c : Dev nD) : S1024.Idx → EReal := V c main_arg4
abbrev biasRow (c : Dev nD) : S1x1024.Idx → EReal := V c main_v0

/-- Entry `(r, d)` of the left operand's block at point `t` is entry `(256·(t / 4) + r, 1024·(t % 4) + d)` of the
    first argument array. -/
theorem lhs_block (c : Dev nD) (t : Fin cfg0.N) (r : Fin 256) (d : Fin 1024) (R : Fin 512) (D : Fin 4096)
    (hR : R.val = 256 * (t.val / 4) + r.val) (hD : D.val = 1024 * (t.val % 4) + d.val) :
    lhsAt V c t (ix2 r d) = vfArr V c (ix2 R D) := by
  obtain ⟨e0, e1, -⟩ := block_index t
  show V c main_arg0 (((cfg0.win 0).blk t).view.emb (ix2 r d)) = V c main_arg0 (ix2 R D)
  refine congrArg _ (funext fun a => Fin.ext ?_)
  match a with
  | ⟨0, _⟩ => show win0_0.index t (0 : Fin 2) * 256 + 1 * r.val = R.val; omega
  | ⟨1, _⟩ => show win0_0.index t (1 : Fin 2) * 1024 + 1 * d.val = D.val; omega

/-- Entry `(e, d)` of the weight's block at point `t` is entry `(e, 1024·(t % 4) + d)` of the weight array. -/
theorem rhs_block (c : Dev nD) (t : Fin cfg0.N) (e : Fin 1024) (d : Fin 1024) (D : Fin 4096)
    (hD : D.val = 1024 * (t.val % 4) + d.val) :
    rhsAt V c t (ix2 e d) = wArr V c (ix2 e D) := by
  obtain ⟨-, -, e0, e1, -⟩ := block_index t
  show V c main_arg3 (((cfg0.win 1).blk t).view.emb (ix2 e d)) = V c main_arg3 (ix2 e D)
  refine congrArg _ (funext fun a => Fin.ext ?_)
  match a with
  | ⟨0, _⟩ => show win0_1.index t (0 : Fin 2) * 1024 + 1 * e.val = e.val; omega
  | ⟨1, _⟩ => show win0_1.index t (1 : Fin 2) * 1024 + 1 * d.val = D.val; omega

/-- The bias row's block is the whole row at every point. -/
theorem bias_block (c : Dev nD) (t : Fin cfg0.N) (e : Fin 1024) :
    biasAt V c t (ix2 (0 : Fin 1) e) = biasRow V c (ix2 (0 : Fin 1) e) := by
  obtain ⟨-, -, -, -, e0, e1, -⟩ := block_index t
  show V c main_v0 (((cfg0.win 2).blk t).view.emb (ix2 (0 : Fin 1) e)) = V c main_v0 (ix2 (0 : Fin 1) e)
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * e.val = e.val; omega

/-! ## The running block after each point -/

/-- What point `n` adds to entry `(r, e)` of the running block: the inner product, over the 1024 columns of its
    blocks, of row `r` of the left operand's block with row `e` of the weight's block (zero past the grid, where
    it is never used). -/
def addend (c : Dev nD) (n : ℕ) (r : Fin 256) (e : Fin 1024) : EReal :=
  if h : n < cfg0.N then
    ∑ d : Fin 1024, lhsAt V c ⟨n, h⟩ (ix2 r d) * rhsAt V c ⟨n, h⟩ (ix2 e d)
  else 0

theorem addend_of_lt (c : Dev nD) (n : ℕ) (h : n < cfg0.N) (r : Fin 256) (e : Fin 1024) :
    addend V c n r e
      = ∑ d : Fin 1024, lhsAt V c ⟨n, h⟩ (ix2 r d) * rhsAt V c ⟨n, h⟩ (ix2 e d) := by
  unfold addend
  rw [dif_pos h]

/-- A running block that is reset to zero-plus-the-addend at the points ≡ 0 (mod 4) and takes the addend at every
    other point holds, after point `n`, the sum of the addends of the points from the last reset to `n`. -/
theorem running_apply (c : Dev nD) (acc : (n : ℕ) → n < cfg0.N → Vec Ideal S256x1024 .f32)
    (hreset : ∀ (n : ℕ) (hn : n < cfg0.N), n % 4 = 0 → acc n hn = k0_pay2 (iblk0 V c 0 ⟨n, hn⟩) (iblk0 V c 1 ⟨n, hn⟩) (k0_pay1 (F := Ideal)))
    (hstep : ∀ (n : ℕ) (hn : n + 1 < cfg0.N), ¬ (n + 1) % 4 = 0 → acc (n + 1) hn = k0_pay2 (iblk0 V c 0 ⟨n + 1, hn⟩) (iblk0 V c 1 ⟨n + 1, hn⟩) (acc n (Nat.lt_of_succ_lt hn)))
    (r : Fin 256) (e : Fin 1024) :
    ∀ (n : ℕ) (hn : n < cfg0.N), acc n hn (ix2 r e) = ∑ s ∈ Finset.range (n % 4 + 1), addend V c (n - n % 4 + s) r e := by
  have at_reset : ∀ (n : ℕ) (hn : n < cfg0.N), n % 4 = 0 →
      acc n hn (ix2 r e) = ∑ s ∈ Finset.range (n % 4 + 1), addend V c (n - n % 4 + s) r e := by
    intro n hn h
    refine (congrFun (hreset n hn h) (ix2 r e)).trans ?_
    refine (step_apply (iblk0 V c 0 ⟨n, hn⟩) (iblk0 V c 1 ⟨n, hn⟩) (k0_pay1 (F := Ideal)) r e).trans ?_
    rw [reset_apply, zero_add, h, Nat.zero_add, Finset.sum_range_one, Nat.sub_zero, Nat.add_zero, addend_of_lt V c n hn]
  intro n
  induction n with
  | zero => intro hn; exact at_reset 0 hn rfl
  | succ n ih =>
    intro hn
    by_cases h : (n + 1) % 4 = 0
    · exact at_reset (n + 1) hn h
    · refine (congrFun (hstep n hn h) (ix2 r e)).trans ?_
      refine (step_apply (iblk0 V c 0 ⟨n + 1, hn⟩) (iblk0 V c 1 ⟨n + 1, hn⟩) (acc n (Nat.lt_of_succ_lt hn)) r e).trans ?_
      have e1 : (n + 1) % 4 = n % 4 + 1 := by omega
      have e2 : n + 1 - (n % 4 + 1) = n - n % 4 := by omega
      have e3 : n - n % 4 + (n % 4 + 1) = n + 1 := by omega
      rw [ih (Nat.lt_of_succ_lt hn), e1, e2, Finset.sum_range_succ _ (n % 4 + 1), e3, addend_of_lt V c (n + 1) hn]

/-! ## Four column blocks of 1024 are the 4096 columns -/

/-- A sum over the 4096 columns, taken block by block: 4 blocks of 1024 columns. -/
theorem sum_column_blocks (f : Fin 4096 → EReal) :
    ∑ k : Fin 4, ∑ d : Fin 1024, f ⟨1024 * k.val + d.val, by omega⟩ = ∑ D : Fin 4096, f D := by
  refine (Fintype.sum_prod_type' (fun (k : Fin 4) (d : Fin 1024) => f ⟨1024 * k.val + d.val, by omega⟩)).symm.trans ?_
  refine Eq.trans ?_ (Equiv.sum_comp (finProdFinEquiv (m := 4) (n := 1024)) f)
  refine Finset.sum_congr rfl fun p _ => congrArg f (Fin.ext ?_)
  show 1024 * p.1.val + p.2.val = p.2.val + 1024 * p.1.val
  omega

/-! ## The block written back, and the array -/

/-- After the last point of a row block the running block's entry `(r, e)` is the inner product, over all 4096
    columns, of row `256·(t / 4) + r` of the first argument with row `e` of the weight. -/
theorem running_last (c : Dev nD) (acc : (n : ℕ) → n < cfg0.N → Vec Ideal S256x1024 .f32)
    (hreset : ∀ (n : ℕ) (hn : n < cfg0.N), n % 4 = 0 → acc n hn = k0_pay2 (iblk0 V c 0 ⟨n, hn⟩) (iblk0 V c 1 ⟨n, hn⟩) (k0_pay1 (F := Ideal)))
    (hstep : ∀ (n : ℕ) (hn : n + 1 < cfg0.N), ¬ (n + 1) % 4 = 0 → acc (n + 1) hn = k0_pay2 (iblk0 V c 0 ⟨n + 1, hn⟩) (iblk0 V c 1 ⟨n + 1, hn⟩) (acc n (Nat.lt_of_succ_lt hn)))
    (t : Fin cfg0.N) (h3 : t.val % 4 = 3) (r : Fin 256) (e : Fin 1024) (R : Fin 512) (hR : R.val = 256 * (t.val / 4) + r.val) :
    acc t.val t.isLt (ix2 r e)
      = ∑ D : Fin 4096, vfArr V c (ix2 R D) * wArr V c (ix2 e D) := by
  have hN : cfg0.N = 8 := N_0
  have ht : t.val < 8 := hN ▸ t.isLt
  rw [running_apply V c acc hreset hstep r e t.val t.isLt, h3, Finset.sum_range,
    ← sum_column_blocks fun D => vfArr V c (ix2 R D) * wArr V c (ix2 e D)]
  refine Finset.sum_congr rfl fun k _ => ?_
  have hk : k.val < 4 := k.isLt
  have hn : t.val - 3 + k.val < cfg0.N := Nat.lt_of_lt_of_eq (by omega : t.val - 3 + k.val < 8) hN.symm
  rw [addend_of_lt V c _ hn]
  refine Finset.sum_congr rfl fun d _ => ?_
  have hd : d.val < 1024 := d.isLt
  rw [lhs_block V c ⟨t.val - 3 + k.val, hn⟩ r d R ⟨1024 * k.val + d.val, by omega⟩ (by show R.val = 256 * ((t.val - 3 + k.val) / 4) + r.val; omega)
      (by show 1024 * k.val + d.val = 1024 * ((t.val - 3 + k.val) % 4) + d.val; omega),
    rhs_block V c ⟨t.val - 3 + k.val, hn⟩ e d ⟨1024 * k.val + d.val, by omega⟩
      (by show 1024 * k.val + d.val = 1024 * ((t.val - 3 + k.val) % 4) + d.val; omega)]

/-- WHAT A POINT WRITES BACK, at the points that do (the last of each row block): its block of the embedding of the
    argument arrays. -/
theorem flushed_eq {c : Dev nD} (dat : Dat τ (Elt Ideal) Unit ℕ (UR sig nD τ) ℕ cfg0 c)
    (acc : (n : ℕ) → n < cfg0.N → Vec Ideal S256x1024 .f32)
    (hreset : ∀ (n : ℕ) (hn : n < cfg0.N), n % 4 = 0 → acc n hn = k0_pay2 (iblk0 V c 0 ⟨n, hn⟩) (iblk0 V c 1 ⟨n, hn⟩) (k0_pay1 (F := Ideal)))
    (hstep : ∀ (n : ℕ) (hn : n + 1 < cfg0.N), ¬ (n + 1) % 4 = 0 → acc (n + 1) hn = k0_pay2 (iblk0 V c 0 ⟨n + 1, hn⟩) (iblk0 V c 1 ⟨n + 1, hn⟩) (acc n (Nat.lt_of_succ_lt hn)))
    (hafter : ∀ t : Fin cfg0.N, t.val % 4 = 3 → dat.after 3 t = k0_pay3 (acc t.val t.isLt) (iblk0 V c 2 t))
    (hbias : V c main_v0 = shapeCast S1x1024 (V c main_arg4) shapeCasts_S1024_S1x1024)
    (t : Fin cfg0.N) (hf : (cfg0.win 3).flush t = true) :
    dat.flushed 3 t = ((cfg0.win 3).blk t).view.read (Elt Ideal) (Cert.Spec.emb (V c main_arg0) (V c main_arg3) (V c main_arg4)) := by
  have h3 : t.val % 4 = 3 := (flush0_3 t).mp hf
  have hN : cfg0.N = 8 := N_0
  have ht : t.val < 8 := hN ▸ t.isLt
  obtain ⟨-, -, -, -, -, -, e0, e1⟩ := block_index t
  show (cfg0.win 3).cut (grid0.coords t) (dat.after 3 t) = _
  rw [hafter t h3]
  funext y
  obtain ⟨r, e, rfl⟩ : ∃ (r : Fin 256) (e : Fin 1024), y = (ix2 r e : S256x1024.Idx) := ⟨y 0, y 1, eq_ix2 (n0 := 256) (n1 := 1024) y⟩
  have hr : r.val < 256 := r.isLt
  have hemb : ((cfg0.win 3).blk t).view.emb (ix2 r e : S256x1024.Idx) = (ix2 (⟨256 * (t.val / 4) + r.val, by omega⟩ : Fin 512) e : S512x1024.Idx) := by
    funext a; apply Fin.ext
    match a with
    | ⟨0, _⟩ => show win0_3.index t (0 : Fin 2) * 256 + 1 * r.val = 256 * (t.val / 4) + r.val; omega
    | ⟨1, _⟩ => show win0_3.index t (1 : Fin 2) * 1024 + 1 * e.val = e.val; omega
  show k0_pay3 (acc t.val t.isLt) (biasAt V c t) (ix2 r e)
    = Cert.Spec.emb (vfArr V c) (wArr V c) (biasArr V c) (((cfg0.win 3).blk t).view.emb (ix2 r e : S256x1024.Idx))
  rw [hemb, out_apply, running_last V c acc hreset hstep t h3 r e ⟨256 * (t.val / 4) + r.val, by omega⟩ rfl, bias_block]
  show _ + biasRow V c (ix2 (0 : Fin 1) e)
    = (∑ D : Fin 4096, vfArr V c (ix2 (⟨256 * (t.val / 4) + r.val, by omega⟩ : Fin 512) D) * wArr V c (ix2 e D)) + biasArr V c (ix1 e)
  refine congrArg (_ + ·) ?_
  have hb : biasRow V c = shapeCast S1x1024 (biasArr V c) shapeCasts_S1024_S1x1024 := hbias
  rw [hb]
  exact shapeCast_a_1a_apply (biasArr V c) shapeCasts_S1024_S1x1024 0 e

/-- Every row of the output lies in the block of the last point of its row block. -/
theorem covered (i : S512x1024.Idx) :
    ∃ t : Fin cfg0.N, (cfg0.win 3).flush t = true ∧ i ∈ ((cfg0.win 3).blk t).view.set := by
  have hN : cfg0.N = 8 := N_0
  have hi0 : (i 0).val < 512 := (i 0).isLt
  have hi1 : (i 1).val < 1024 := (i 1).isLt
  let t : Fin cfg0.N := ⟨4 * ((i 0).val / 256) + 3, Nat.lt_of_lt_of_eq (by omega : 4 * ((i 0).val / 256) + 3 < 8) hN.symm⟩
  have htv : t.val = 4 * ((i 0).val / 256) + 3 := rfl
  obtain ⟨-, -, -, -, -, -, e0, e1⟩ := block_index t
  refine ⟨t, (flush0_3 t).mpr (by rw [htv]; omega), ?_⟩
  show i ∈ ((View.whole main_v1).slice (win0_3.rect t)).set
  rw [View.set_slice_whole, Rect.mem_set_unit]
  intro a
  match a with
  | ⟨0, _⟩ =>
    show win0_3.index t (0 : Fin 2) * 256 ≤ (i 0).val ∧ (i 0).val < win0_3.index t (0 : Fin 2) * 256 + 256
    rw [e0, htv]; omega
  | ⟨1, _⟩ =>
    show win0_3.index t (1 : Fin 2) * 1024 ≤ (i 1).val ∧ (i 1).val < win0_3.index t (1 : Fin 2) * 1024 + 1024
    rw [e1]; omega

/-- THE ARRAY the first kernel leaves: the embedding of the argument arrays. -/
theorem arr0_eq {c : Dev nD}
    (dat : Dat τ (Elt Ideal) Unit ℕ (UR sig nD τ) ℕ cfg0 c)
    (hA : ∀ w, dat.A w = V c (Pipeline.arrRef spec0 w))
    (acc : (n : ℕ) → n < cfg0.N → Vec Ideal S256x1024 .f32)
    (hreset : ∀ (n : ℕ) (hn : n < cfg0.N), n % 4 = 0 → acc n hn = k0_pay2 (iblk0 V c 0 ⟨n, hn⟩) (iblk0 V c 1 ⟨n, hn⟩) (k0_pay1 (F := Ideal)))
    (hstep : ∀ (n : ℕ) (hn : n + 1 < cfg0.N), ¬ (n + 1) % 4 = 0 → acc (n + 1) hn = k0_pay2 (iblk0 V c 0 ⟨n + 1, hn⟩) (iblk0 V c 1 ⟨n + 1, hn⟩) (acc n (Nat.lt_of_succ_lt hn)))
    (hafter : ∀ t : Fin cfg0.N, t.val % 4 = 3 → dat.after 3 t = k0_pay3 (acc t.val t.isLt) (iblk0 V c 2 t))
    (hbias : V c main_v0 = shapeCast S1x1024 (V c main_arg4) shapeCasts_S1024_S1x1024) :
    dat.arrAt 3 cfg0.N = Cert.Spec.emb (V c main_arg0) (V c main_arg3) (V c main_arg4) :=
  dat.arrAt_eq_of_cover 3 (Cert.Spec.emb (V c main_arg0) (V c main_arg3) (V c main_arg4))
    (fun t hf => flushed_eq V dat acc hreset hstep hafter hbias t hf) covered

end Cert.KernelIdeal.Value0

end
-- ==== Proof.ValueI.PScore.lean ====
/-
  The value of the second pallas_call's output array over the extended reals: row b of the [512, 1] result is minus the
  square root of the sum over the 1024 features of the squared positive part of p[b, e] - emb[b, e].  The grid has two
  points; point t reads rows 256·t … 256·t + 255 of both inputs and writes the same rows of the output.
-/
import proofs.«160421_j35055523070022_1_alg».proof.Proof.Gen.KernelIdeal.Launch
import proofs.«160421_j35055523070022_1_alg».proof.Proof.Gen.KernelIdeal.Skeleton
import proofs.«160421_j35055523070022_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«160421_j35055523070022_1_alg».proof.Proof.FrameI.Blocks
import proofs.«160421_j35055523070022_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Value1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand
open Idealize.ShloMosaic.ValueIdx
open scoped BigOperators

/-- A vector of length `a` cast to a column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- What the body stores, entry by entry: at row `r` of the block (its one column), minus the square root of the sum over the
    features of the squared positive part of the difference of the two loaded blocks. -/
theorem pay_apply (p e : Vec Ideal S256x1024 .f32) (r : Fin 256) (u : Fin 1) :
    k1_pay1 p e (ix2 r u) = -Ideal.sqrt (∑ k : Fin 1024, Cert.Spec.sqPos (p (ix2 r k)) (e (ix2 r k))) := by
  unfold k1_pay1
  dsimp only
  rw [shapeCast_self]
  refine (subf_apply _ _ _).trans ?_
  show (Ideal.ofBits .f32 0x00000000#32 : EReal) - Ideal.sqrt (shapeCast S256x1 _ shapeCasts_S256_S256x1 (ix2 r u)) = _
  rw [shapeCast_a_a1_apply _ shapeCasts_S256_S256x1 r u, Ideal.ofBits_zero_f32, zero_sub]
  refine congrArg (fun x => -Ideal.sqrt x) ?_
  refine (Ideal.multiReduction_add_single _ _ reduces_S256x1024_S256 _ _ (ix1 r)).trans ?_
  refine Finset.sum_congr rfl fun k _ => ?_
  have hk : reduces_S256x1024_S256.lift (ix1 r) k = ix2 r k :=
    funext fun c => Fin.ext (match c with | ⟨0, _⟩ => rfl | ⟨1, _⟩ => rfl)
  rw [hk]
  show max (p (ix2 r k) - e (ix2 r k)) (Ideal.ofBits .f32 0x00000000#32) * max (p (ix2 r k) - e (ix2 r k)) (Ideal.ofBits .f32 0x00000000#32) = _
  rw [Ideal.ofBits_zero_f32]
  rfl

/-- The printed index maps, decided over the two grid points: every window's block index is (t, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- The first input's block at point `t` is rows 256·t … 256·t + 255 of `p`. -/
theorem iblk1_0_apply (c : Dev nD) (t : Fin cfg1.N) (r : Fin 256) (k : Fin 1024) (R : Fin 512) (hR : R.val = t.val * 256 + r.val) :
    (iblk1 V c 0 t : Vec Ideal S256x1024 .f32) (ix2 r k) = (V c main_arg1 : S512x1024.Idx → EReal) (ix2 R k) := by
  obtain ⟨e0, e1, -⟩ := idx_facts t
  unfold iblk1
  rw [View.read_apply]
  show V c main_arg1 _ = V c main_arg1 _
  congr 1
  funext a; apply Fin.ext
  match a with
  | ⟨0, _⟩ => show win1_0.index t (0 : Fin 2) * 256 + 1 * r.val = R.val; rw [e0, hR]; omega
  | ⟨1, _⟩ => show win1_0.index t (1 : Fin 2) * 1024 + 1 * k.val = k.val; rw [e1]; omega

/-- The second input's block at point `t` is rows 256·t … 256·t + 255 of the embedding. -/
theorem iblk1_1_apply (c : Dev nD) (t : Fin cfg1.N) (r : Fin 256) (k : Fin 1024) (R : Fin 512) (hR : R.val = t.val * 256 + r.val) :
    (iblk1 V c 1 t : Vec Ideal S256x1024 .f32) (ix2 r k) = (V c main_v1 : S512x1024.Idx → EReal) (ix2 R k) := by
  obtain ⟨-, -, e0, e1, -⟩ := idx_facts t
  unfold iblk1
  rw [View.read_apply]
  show V c main_v1 _ = V c main_v1 _
  congr 1
  funext a; apply Fin.ext
  match a with
  | ⟨0, _⟩ => show win1_1.index t (0 : Fin 2) * 256 + 1 * r.val = R.val; rw [e0, hR]; omega
  | ⟨1, _⟩ => show win1_1.index t (1 : Fin 2) * 1024 + 1 * k.val = k.val; rw [e1]; omega

end

section
variable (V : (c : Dev nD) → (b : Ref sig .tc) → Buf (Elt Ideal) ((c : Thread nD τ).loc b))

/-- What point `t` writes back is block `t` of the positive score of `p` against the embedding. -/
theorem flushed_eq {c : Dev nD} (dat : Dat τ (Elt Ideal) Unit ℕ (UR sig nD τ) ℕ cfg1 c)
    (hafter : ∀ t : Fin cfg1.N, dat.after 2 t = k1_pay1 (iblk1 V c 0 t) (iblk1 V c 1 t)) (t : Fin cfg1.N) :
    dat.flushed 2 t = ((cfg1.win 2).blk t).view.read (Elt Ideal) (Cert.Spec.pscore (V c main_arg1) (V c main_v1)) := by
  show (cfg1.win 2).cut (grid1.coords t) (dat.after 2 t) = _
  rw [hafter]
  funext j
  obtain ⟨r, u, rfl⟩ : ∃ (r : Fin 256) (u : Fin 1), j = ix2 r u := ⟨j 0, j 1, eq_ix2 j⟩
  have hN : cfg1.N = 2 := N_1
  have hr := r.isLt
  have ht := t.isLt
  obtain ⟨-, -, -, -, e0, e1⟩ := idx_facts t
  rw [View.read_apply]
  show k1_pay1 (iblk1 V c 0 t) (iblk1 V c 1 t) (ix2 r u) = Cert.Spec.pscore (V c main_arg1) (V c main_v1) (((cfg1.win 2).blk t).view.emb (ix2 r u))
  refine (pay_apply (iblk1 V c 0 t) (iblk1 V c 1 t) r u).trans ?_
  have hi : ((cfg1.win 2).blk t).view.emb (ix2 r u) 0 = (⟨t.val * 256 + r.val, by omega⟩ : Fin 512) :=
    Fin.ext (by show win1_2.index t (0 : Fin 2) * 256 + 1 * r.val = t.val * 256 + r.val; rw [e0]; omega)
  unfold Cert.Spec.pscore
  refine congrArg (fun x => -Ideal.sqrt x) (Finset.sum_congr rfl fun k _ => ?_)
  rw [hi, iblk1_0_apply V c t r k ⟨t.val * 256 + r.val, by omega⟩ rfl, iblk1_1_apply V c t r k ⟨t.val * 256 + r.val, by omega⟩ rfl]

/-- An index of the output array is in point `t`'s block iff each coordinate is in the block's range on its axis. -/
theorem mem_blk (t : Fin cfg1.N) (i : S512x1.Idx) :
    i ∈ ((cfg1.win 2).blk t).view.set ↔ ∀ a : Fin 2, win1_2.index t a * S256x1.size a ≤ (i a).val ∧ (i a).val < win1_2.index t a * S256x1.size a + S256x1.size a := by
  show i ∈ ((View.whole main_v2).slice (win1_2.rect t)).set ↔ _
  rw [View.set_slice_whole, Rect.mem_set_unit]
  exact Iff.rfl

/-- Row `b` of the output is in the block of point `b / 256`, and every point writes its block back. -/
theorem cover (i : S512x1.Idx) : ∃ t : Fin cfg1.N, (cfg1.win 2).flush t = true ∧ i ∈ ((cfg1.win 2).blk t).view.set := by
  have hi0 : (i 0).val < 512 := (i 0).isLt
  have hi1 : (i 1).val < 1 := (i 1).isLt
  have hN : cfg1.N = 2 := N_1
  obtain ⟨-, -, -, -, e0, e1⟩ := idx_facts ⟨(i 0).val / 256, by rw [hN]; omega⟩
  refine ⟨⟨(i 0).val / 256, by rw [hN]; omega⟩, flush1_2 _, ?_⟩
  rw [mem_blk]
  intro a
  match a with
  | ⟨0, _⟩ =>
    show win1_2.index ⟨(i 0).val / 256, _⟩ (0 : Fin 2) * 256 ≤ (i 0).val ∧ (i 0).val < win1_2.index ⟨(i 0).val / 256, _⟩ (0 : Fin 2) * 256 + 256
    rw [e0]
    show (i 0).val / 256 * 256 ≤ (i 0).val ∧ (i 0).val < (i 0).val / 256 * 256 + 256
    omega
  | ⟨1, _⟩ =>
    show win1_2.index ⟨(i 0).val / 256, _⟩ (1 : Fin 2) * 1 ≤ (i 1).val ∧ (i 1).val < win1_2.index ⟨(i 0).val / 256, _⟩ (1 : Fin 2) * 1 + 1
    rw [e1]
    omega

/-- THE ARRAY after the run of the second pallas_call: the positive score of every row of `p` against its row of the embedding. -/
theorem arr1_eq {c : Dev nD}
    (dat : Dat τ (Elt Ideal) Unit ℕ (UR sig nD τ) ℕ cfg1 c)
    (hA : ∀ w, dat.A w = V c (Pipeline.arrRef spec1 w))
    (hafter : ∀ t : Fin cfg1.N, dat.after 2 t = k1_pay1 (iblk1 V c 0 t) (iblk1 V c 1 t)) :
    dat.arrAt 2 cfg1.N = Cert.Spec.pscore (V c main_arg1) (V c main_v1) :=
  dat.arrAt_eq_of_cover 2 (Cert.Spec.pscore (V c main_arg1) (V c main_v1)) (fun t _ => flushed_eq V dat hafter t) cover

end

end Cert.KernelIdeal.Value1

end
-- ==== Proof.ValueI.NScore.lean ====
/-
  The value of the third pallas_call's output array over the extended reals: every entry (b, k) of the 512 × 512 array is
  minus the square root of the sum over the 1024 features of the squared positive part of n[k, e] - emb[b, e]. The body
  adds the features up sixteen chunks of 64 columns at a time into a running sum; a grid point (i, j) holds row block j of
  n and row block i of the embedding and writes back block (i, j) of the array.
-/
import proofs.«160421_j35055523070022_1_alg».proof.Proof.Gen.KernelIdeal.Launch
import proofs.«160421_j35055523070022_1_alg».proof.Proof.Gen.KernelIdeal.Skeleton
import proofs.«160421_j35055523070022_1_alg».proof.Proof.Gen.KernelIdeal.Points
import proofs.«160421_j35055523070022_1_alg».proof.Proof.FrameI.Blocks
import proofs.«160421_j35055523070022_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Value2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand
open Idealize.ShloMosaic.ValueIdx
open scoped BigOperators

/-! ## Layout operations of the body read at an index -/

section Layout
variable {α : Type}

/-- An `[a, c]` array cast to `[a, 1, c]` reads, at `(p, u, e)`, the operand at `(p, e)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (e : Fin c) :
    shapeCast ⟨3, ![a, 1, c]⟩ x h (ix3 p u e) = x (ix2 p e) :=
  shapeCast_apply x h _ _ (by
    have hu : u.val = 0 := by omega
    rw [Shape.rowMajor_val_three, Shape.rowMajor_val_two]
    show p.val * c + e.val = (p.val * 1 + u.val) * c + e.val
    rw [hu, Nat.mul_one, Nat.add_zero])

/-- A `[1, b, c]` array broadcast to `[a, b, c]` reads, at `(p, q, e)`, the operand's one slab at `(q, e)`. -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (e : Fin c) :
    broadcastTo ⟨3, ![a, b, c]⟩ x h (ix3 p q e) = x (ix3 (0 : Fin 1) q e) := by
  refine broadcastTo_apply x h (ix3 p q e) (ix3 (0 : Fin 1) q e) fun ax => ?_
  match ax with
  | ⟨0, _⟩ => rfl
  | ⟨1, _⟩ =>
    show q.val = if b = 1 then 0 else q.val
    split
    · have := q.isLt; omega
    · rfl
  | ⟨2, _⟩ =>
    show e.val = if c = 1 then 0 else e.val
    split
    · have := e.isLt; omega
    · rfl

/-- An `[a, 1, c]` array broadcast to `[a, b, c]` reads, at `(p, q, e)`, the operand's row `p` at `e`. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (e : Fin c) :
    broadcastTo ⟨3, ![a, b, c]⟩ x h (ix3 p q e) = x (ix3 p (0 : Fin 1) e) := by
  refine broadcastTo_apply x h (ix3 p q e) (ix3 p (0 : Fin 1) e) fun ax => ?_
  match ax with
  | ⟨0, _⟩ =>
    show p.val = if a = 1 then 0 else p.val
    split
    · have := p.isLt; omega
    · rfl
  | ⟨1, _⟩ => rfl
  | ⟨2, _⟩ =>
    show e.val = if c = 1 then 0 else e.val
    split
    · have := e.isLt; omega
    · rfl

end Layout

/-- A sum along the last axis of an `[a, b, c]` array of extended reals, from the zero word, reads at `(p, q)` as the sum
    over the last coordinate. -/
theorem sumLastAxis_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec FTy.f32.bits) = FKind.add.neutral .f32 hφ) (p : Fin a) (q : Fin b) :
    multiReduction .add [2] ⟨2, ![a, b]⟩ src 0x00000000#32 h hφ hacc (ix2 p q) = ∑ e : Fin c, src (ix3 p q e) := by
  refine (Ideal.multiReduction_add_single src 0x00000000#32 h hφ hacc (ix2 p q)).trans ?_
  refine Finset.sum_congr rfl fun e _ => congrArg src (funext fun ax => Fin.ext ?_)
  rw [h.lift_val]
  unfold Shape.Reduces.liftVal
  match ax with
  | ⟨0, _⟩ => rfl
  | ⟨1, _⟩ => rfl
  | ⟨2, _⟩ => rfl

/-! ## One chunk's contribution, and the running sum after `s` chunks -/

/-- The zero the running sum starts from. -/
theorem pay1_apply (p q : Fin 128) : (k2_pay1 (F := Ideal)) (ix2 p q) = 0 := by
  unfold k2_pay1
  rw [shapeCast_self]
  exact Ideal.ofBits_zero_f32

/-- One step of the body at `(p, q)`: the running sum plus, over the chunk's 64 columns, the squared positive part of
    row `q` of the chunk of `n` minus row `p` of the chunk of the embedding. -/
theorem pay2_apply (nch ech : Vec Ideal S128x64 .f32) (acc : Vec Ideal S128x128 .f32) (p q : Fin 128) :
    k2_pay2 nch ech acc (ix2 p q) = acc (ix2 p q) + ∑ e : Fin 64, Cert.Spec.sqPos (nch (ix2 q e)) (ech (ix2 p e)) := by
  unfold k2_pay2
  dsimp only
  rw [shapeCast_self]
  refine congrArg (fun z => acc (ix2 p q) + z) ?_
  refine (sumLastAxis_apply _ _ _ _ p q).trans ?_
  refine Finset.sum_congr rfl fun e _ => ?_
  rw [shapeCast_self]
  show max (broadcastTo S128x128x64 (shapeCast S1x128x64 nch shapeCasts_S128x64_S1x128x64) broadcasts_S1x128x64_S128x128x64 (ix3 p q e)
        - broadcastTo S128x128x64 (shapeCast S128x1x64 ech shapeCasts_S128x64_S128x1x64) broadcasts_S128x1x64_S128x128x64 (ix3 p q e)) (Ideal.ofBits .f32 0x00000000#32)
      * max (broadcastTo S128x128x64 (shapeCast S1x128x64 nch shapeCasts_S128x64_S1x128x64) broadcasts_S1x128x64_S128x128x64 (ix3 p q e)
        - broadcastTo S128x128x64 (shapeCast S128x1x64 ech shapeCasts_S128x64_S128x1x64) broadcasts_S128x1x64_S128x128x64 (ix3 p q e)) (Ideal.ofBits .f32 0x00000000#32) = _
  rw [broadcastTo_1bc_abc_apply, broadcastTo_a1c_abc_apply, shapeCast_ab_1ab_apply, shapeCast_ac_a1c_apply, Ideal.ofBits_zero_f32]
  rfl

/-- Column `e` of chunk `j` among the 1024 columns. -/
def col (j : ℕ) (hj : j < 16) (e : Fin 64) : Fin 1024 := ⟨64 * j + e.val, by omega⟩

/-- The chunks' offsets: chunk `s` starts at row 0, column `64 s`. -/
theorem off1_val : ∀ s : Fin 16, k2_off1 (BitVec.ofNat 32 s.val) = ![0, 64 * s.val] := by decide

/-- A chunk of a 128 × 1024 block read at `(r, e)` is the block at `(r, 64 j + e)`. -/
theorem ld_chunk2 (x : Vec Ideal S128x1024 .f32) (j : Fin 16) (r : Fin 128) (e : Fin 64) :
    View.ld x (chunk2 j) (ix2 r e) = x (ix2 r (col j.val j.isLt e)) := by
  show x ((chunk2 j).idx (ix2 r e)) = _
  refine congrArg x (funext fun ax => Fin.ext ?_)
  match ax with
  | ⟨0, _⟩ =>
    show k2_off1 (BitVec.ofNat 32 j.val) 0 + 1 * r.val = r.val
    rw [off1_val j]; show 0 + 1 * r.val = r.val; omega
  | ⟨1, _⟩ =>
    show k2_off1 (BitVec.ofNat 32 j.val) 1 + 1 * e.val = 64 * j.val + e.val
    rw [off1_val j]; show 64 * j.val + 1 * e.val = 64 * j.val + e.val; omega

/-- What chunk `j` adds at `(p, q)`, over the 128 × 1024 blocks of `n` and of the embedding. -/
def chunkSum (x0 x1 : Vec Ideal S128x1024 .f32) (p q : Fin 128) (j : ℕ) (hj : j < 16) : EReal :=
  ∑ e : Fin 64, Cert.Spec.sqPos (x0 (ix2 q (col j hj e))) (x1 (ix2 p (col j hj e)))

/-- After `s` chunks the running sum holds, at `(p, q)`, the first `s` chunks' contributions. -/
theorem acc2_apply (x0 x1 : Vec Ideal S128x1024 .f32) : ∀ (s : ℕ) (h : s ≤ 16) (p q : Fin 128),
    acc2 x0 x1 s h (ix2 p q) = ∑ j : Fin s, chunkSum x0 x1 p q j.val (Nat.lt_of_lt_of_le j.isLt h)
  | 0, h, p, q => by
    show (k2_pay1 (F := Ideal)) (ix2 p q) = _
    rw [pay1_apply, Finset.univ_eq_empty, Finset.sum_empty]
  | s + 1, h, p, q => by
    show k2_pay2 (View.ld x0 (chunk2 ⟨s, h⟩)) (View.ld x1 (chunk2 ⟨s, h⟩)) (acc2 x0 x1 s (Nat.le_of_succ_le h)) (ix2 p q) = _
    refine (pay2_apply _ _ _ p q).trans ?_
    rw [acc2_apply x0 x1 s (Nat.le_of_succ_le h) p q]
    refine Eq.trans ?_ (Fin.sum_univ_castSucc (fun j : Fin (s + 1) => chunkSum x0 x1 p q j.val (Nat.lt_of_lt_of_le j.isLt h))).symm
    refine congrArg₂ (· + ·) (Finset.sum_congr rfl fun _ _ => rfl) ?_
    show _ = chunkSum x0 x1 p q s (Nat.lt_of_succ_le h)
    unfold chunkSum
    refine Finset.sum_congr rfl fun e _ => ?_
    rw [ld_chunk2 x0 ⟨s, h⟩ q e, ld_chunk2 x1 ⟨s, h⟩ p e]

/-- Sixteen chunks of 64 columns are the 1024 columns. -/
theorem sum_chunks (f : Fin 1024 → EReal) :
    ∑ j : Fin 16, ∑ e : Fin 64, f (col j.val j.isLt e) = ∑ k : Fin 1024, f k := by
  rw [← Equiv.sum_comp (finProdFinEquiv : Fin 16 × Fin 64 ≃ Fin 1024) f, Fintype.sum_prod_type]
  refine Finset.sum_congr rfl fun j _ => Finset.sum_congr rfl fun e _ => congrArg f (Fin.ext ?_)
  show 64 * j.val + e.val = e.val + 64 * j.val
  omega

/-- What the body leaves in its output block at `(p, q)`: minus the root of the sum over all 1024 features. -/
theorem out_apply (x0 x1 : Vec Ideal S128x1024 .f32) (p q : Fin 128) :
    k2_pay25 (acc2 x0 x1 16 (Nat.le_refl 16)) (ix2 p q)
      = -Ideal.sqrt (∑ k : Fin 1024, Cert.Spec.sqPos (x0 (ix2 q k)) (x1 (ix2 p k))) := by
  unfold k2_pay25
  show Ideal.ofBits .f32 0x00000000#32 - Ideal.sqrt (acc2 x0 x1 16 (Nat.le_refl 16) (ix2 p q)) = _
  rw [Ideal.ofBits_zero_f32, zero_sub, acc2_apply x0 x1 16 (Nat.le_refl 16) p q]
  unfold chunkSum
  rw [sum_chunks fun k => Cert.Spec.sqPos (x0 (ix2 q k)) (x1 (ix2 p k))]

/-! ## From blocks to the array -/

variable (V : (c : Dev nD) → (b : Ref sig .tc) → Buf (Elt Ideal) ((c : Thread nD τ).loc b))

/-- The index maps over the 4 × 4 grid: the block of `n` is the row block named by the output block's column index, the
    block of the embedding the row block named by its row index, both over all columns; the output's block indices stay
    below 4. -/
theorem idx_facts : ∀ t : Fin cfg2.N, win2_0.index t (0 : Fin 2) = win2_2.index t (1 : Fin 2)
    ∧ win2_0.index t (1 : Fin 2) = 0
    ∧ win2_1.index t (0 : Fin 2) = win2_2.index t (0 : Fin 2)
    ∧ win2_1.index t (1 : Fin 2) = 0
    ∧ win2_2.index t (0 : Fin 2) ≤ 3 ∧ win2_2.index t (1 : Fin 2) ≤ 3 :=
  (by decide +kernel : ∀ t : Fin grid2.N, _)

/-- Every one of the 4 × 4 output blocks is some point's. -/
theorem idx_onto : ∀ (q0 q1 : Fin 4), ∃ t : Fin cfg2.N, win2_2.index t = ![q0.val, q1.val] :=
  (by decide +kernel : ∀ (q0 q1 : Fin 4), ∃ t : Fin grid2.N, win2_2.index t = ![q0.val, q1.val])

/-- Entry `(r, k)` of the block of `n` at point `t` is the array at row `128 · (block index) + r`, column `k`. -/
theorem iblk2_0_apply (c : Dev nD) (t : Fin cfg2.N) (r : Fin 128) (k : Fin 1024) (i : S512x1024.Idx)
    (h0 : (i 0).val = win2_0.index t (0 : Fin 2) * 128 + r.val) (h1 : (i 1).val = k.val)
    (hz : win2_0.index t (1 : Fin 2) = 0) :
    (iblk2 V c 0 t : Vec Ideal S128x1024 .f32) (ix2 r k) = (V c main_arg2 : S512x1024.Idx → EReal) i := by
  unfold iblk2
  rw [View.read_apply]
  show V c main_arg2 _ = V c main_arg2 _
  congr 1
  funext a
  apply Fin.ext
  match a with
  | ⟨0, _⟩ => show win2_0.index t (0 : Fin 2) * 128 + 1 * r.val = (i 0).val; omega
  | ⟨1, _⟩ => show win2_0.index t (1 : Fin 2) * 1024 + 1 * k.val = (i 1).val; omega

/-- Entry `(r, k)` of the block of the embedding at point `t` is the array at row `128 · (block index) + r`, column `k`. -/
theorem iblk2_1_apply (c : Dev nD) (t : Fin cfg2.N) (r : Fin 128) (k : Fin 1024) (i : S512x1024.Idx)
    (h0 : (i 0).val = win2_1.index t (0 : Fin 2) * 128 + r.val) (h1 : (i 1).val = k.val)
    (hz : win2_1.index t (1 : Fin 2) = 0) :
    (iblk2 V c 1 t : Vec Ideal S128x1024 .f32) (ix2 r k) = (V c main_v1 : S512x1024.Idx → EReal) i := by
  unfold iblk2
  rw [View.read_apply]
  show V c main_v1 _ = V c main_v1 _
  congr 1
  funext a
  apply Fin.ext
  match a with
  | ⟨0, _⟩ => show win2_1.index t (0 : Fin 2) * 128 + 1 * r.val = (i 0).val; omega
  | ⟨1, _⟩ => show win2_1.index t (1 : Fin 2) * 1024 + 1 * k.val = (i 1).val; omega

/-- What point `t` leaves in its output block at `(p, q)` is the negative score at the array index the block's entry
    `(p, q)` sits at. -/
theorem blk_entry (c : Dev nD) (t : Fin cfg2.N) (p q : Fin 128) (i : S512x512.Idx)
    (h0 : (i 0).val = win2_2.index t (0 : Fin 2) * 128 + p.val) (h1 : (i 1).val = win2_2.index t (1 : Fin 2) * 128 + q.val) :
    k2_pay25 (acc2 (iblk2 V c 0 t) (iblk2 V c 1 t) 16 (Nat.le_refl 16)) (ix2 p q)
      = Cert.Spec.nscore (V c main_arg2) (V c main_v1) i := by
  refine (out_apply (iblk2 V c 0 t) (iblk2 V c 1 t) p q).trans ?_
  obtain ⟨e0, e1, e2, e3, -, -⟩ := idx_facts t
  unfold Cert.Spec.nscore
  refine congrArg (fun z => -Ideal.sqrt z) (Finset.sum_congr rfl fun k _ => ?_)
  refine congrArg₂ Cert.Spec.sqPos ?_ ?_
  · exact iblk2_0_apply V c t q k (ix2 (i 1) k) (by show (i 1).val = _; omega) rfl e1
  · exact iblk2_1_apply V c t p k (ix2 (i 0) k) (by show (i 0).val = _; omega) rfl e3

/-- What point `t` writes back is block `t` of the negative scores of the arrays the region finds. -/
theorem flushed2_eq {c : Dev nD} (dat : Dat τ (Elt Ideal) Unit ℕ (UR sig nD τ) ℕ cfg2 c)
    (hafter : ∀ t : Fin cfg2.N, dat.after 2 t = k2_pay25 (acc2 (iblk2 V c 0 t) (iblk2 V c 1 t) 16 (Nat.le_refl 16)))
    (t : Fin cfg2.N) :
    dat.flushed 2 t = ((cfg2.win 2).blk t).view.read (Elt Ideal) (Cert.Spec.nscore (V c main_arg2) (V c main_v1)) := by
  show (cfg2.win 2).cut (grid2.coords t) (dat.after 2 t) = _
  rw [hafter t]
  refine funext fun (y : S128x128.Idx) => ?_
  obtain ⟨p, q, rfl⟩ : ∃ (p q : Fin 128), y = ix2 p q := ⟨y 0, y 1, eq_ix2 y⟩
  show k2_pay25 (acc2 (iblk2 V c 0 t) (iblk2 V c 1 t) 16 (Nat.le_refl 16)) (ix2 p q)
    = Cert.Spec.nscore (V c main_arg2) (V c main_v1) (((cfg2.win 2).blk t).view.emb (ix2 p q))
  exact blk_entry V c t p q _
    (by show win2_2.index t (0 : Fin 2) * 128 + 1 * p.val = _; omega)
    (by show win2_2.index t (1 : Fin 2) * 128 + 1 * q.val = _; omega)

/-- An index of the 512 × 512 array is in point `t`'s block iff each coordinate is in the block's range on its axis. -/
theorem mem_blk2 (t : Fin cfg2.N) (i : S512x512.Idx) :
    i ∈ ((cfg2.win 2).blk t).view.set ↔ ∀ a : Fin 2, win2_2.index t a * S128x128.size a ≤ (i a).val
      ∧ (i a).val < win2_2.index t a * S128x128.size a + S128x128.size a := by
  show i ∈ ((View.whole main_v3).slice (win2_2.rect t)).set ↔ _
  rw [View.set_slice_whole, Rect.mem_set_unit]
  exact Iff.rfl

/-- Every index `(b, k)` of the array is in the block `(b / 128, k / 128)`, which some point writes back. -/
theorem cover2 (i : S512x512.Idx) :
    ∃ t : Fin cfg2.N, (cfg2.win 2).flush t = true ∧ i ∈ ((cfg2.win 2).blk t).view.set := by
  have hi0 : (i 0).val < 512 := (i 0).isLt
  have hi1 : (i 1).val < 512 := (i 1).isLt
  obtain ⟨t, ht⟩ := idx_onto ⟨(i 0).val / 128, by omega⟩ ⟨(i 1).val / 128, by omega⟩
  have q0 : win2_2.index t (0 : Fin 2) = (i 0).val / 128 := congrFun ht 0
  have q1 : win2_2.index t (1 : Fin 2) = (i 1).val / 128 := congrFun ht 1
  refine ⟨t, flush2_2 t, ?_⟩
  rw [mem_blk2]
  intro a
  match a with
  | ⟨0, _⟩ =>
    show win2_2.index t (0 : Fin 2) * 128 ≤ (i 0).val ∧ (i 0).val < win2_2.index t (0 : Fin 2) * 128 + 128
    omega
  | ⟨1, _⟩ =>
    show win2_2.index t (1 : Fin 2) * 128 ≤ (i 1).val ∧ (i 1).val < win2_2.index t (1 : Fin 2) * 128 + 128
    omega

/-- The third pallas_call's output array after the last point: the negative scores of `n` against the embedding. -/
theorem arr2_eq {c : Dev nD}
    (dat : Dat τ (Elt Ideal) Unit ℕ (UR sig nD τ) ℕ cfg2 c)
    (hA : ∀ w, dat.A w = V c (Pipeline.arrRef spec2 w))
    (hafter : ∀ t : Fin cfg2.N, dat.after 2 t = k2_pay25 (acc2 (iblk2 V c 0 t) (iblk2 V c 1 t) 16 (Nat.le_refl 16))) :
    dat.arrAt 2 cfg2.N = Cert.Spec.nscore (V c main_arg2) (V c main_v1) :=
  dat.arrAt_eq_of_cover 2 (Cert.Spec.nscore (V c main_arg2) (V c main_v1)) (fun t _ => flushed2_eq V dat hafter t) cover2

end Cert.KernelIdeal.Value2

end
-- ==== Proof.ValueI.Result.lean ====
/-
  The value of the run at the ideal instance: the first pallas_call leaves the embedding of the arguments, the second the
  positive scores of `p` against it, the third the negative scores of `n` against it, and the host concatenates the two
  score arrays along the columns.
-/
import proofs.«160421_j35055523070022_1_alg».proof.Proof.FrameI.Run
import proofs.«160421_j35055523070022_1_alg».proof.Proof.ValueI.Emb
import proofs.«160421_j35055523070022_1_alg».proof.Proof.ValueI.PScore
import proofs.«160421_j35055523070022_1_alg».proof.Proof.ValueI.NScore
import proofs.«160421_j35055523070022_1_alg».proof.Proof.Spec
import Idealize.ShloMosaic.Lib.StableHlo.Run
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

variable (m : (ℓ : Loc nD τ sig) → Buf (Elt Ideal) ℓ) (ρ : Dev nD → PrngReg)

/-! ## The arguments and the reshaped bias as the first region finds them -/

theorem V1_of_ne (c : Dev nD) (b : Ref sig .tc) (hb : b ≠ main_v0) : V1 m ρ c b = m ((c : Thread nD τ).loc b) :=
  after_hostOps0_of_ne (W0 m ρ c) b hb

/-- The bias row the first pallas_call reads is the bias argument, reshaped. -/
theorem V1_main_v0 (c : Dev nD) :
    V1 m ρ c main_v0 = shapeCast S1x1024 (m ((c : Thread nD τ).loc main_arg4)) shapeCasts_S1024_S1x1024 := by
  show StableHlo.after hostOps0 (W0 m ρ c) (Proc.devRef .tc main_v0) = _
  after_results
  rfl

/-! ## The embedding -/

/-- The first pallas_call's output array is the embedding of the arguments. -/
theorem V2_main_v1 (c : Dev nD) : V2 m ρ c main_v1
    = Cert.Spec.emb (m ((c : Thread nD τ).loc main_arg0)) (m ((c : Thread nD τ).loc main_arg3)) (m ((c : Thread nD τ).loc main_arg4)) := by
  have h := Value0.arr0_eq (V1 m ρ) (dat0 (V1 m ρ) c) (A_eq0 (V1 m ρ) c) (accAt0 (V1 m ρ) c) (accAt0_reset (V1 m ρ) c)
    (accAt0_step (V1 m ρ) c) (after0_3 (V1 m ρ) c) (V1_main_v0 m ρ c)
  rw [V1_of_ne m ρ c main_arg0 (by decide), V1_of_ne m ρ c main_arg3 (by decide), V1_of_ne m ρ c main_arg4 (by decide)] at h
  exact (W2_arr m ρ c 3).trans h

/-- The second and third pallas_calls read it unchanged. -/
theorem V3_main_v1 (c : Dev nD) : V3 m ρ c main_v1 = V2 m ρ c main_v1 :=
  (W3_arr m ρ c 1).trans (((dat1 (V2 m ρ) c).arrAt_in 1 rfl _).trans (A_eq1 (V2 m ρ) c 1))

/-! ## The two score arrays -/

theorem V2_of_ne0 (c : Dev nD) (b : Ref sig .tc) (hb : ∀ w, Pipeline.arrRef spec0 w ≠ b) (hb0 : b ≠ main_v0) :
    V2 m ρ c b = m ((c : Thread nD τ).loc b) :=
  (W2_of_ne m ρ c b hb).trans (V1_of_ne m ρ c b hb0)

/-- The second pallas_call's output array: the positive scores. -/
theorem V3_main_v2 (c : Dev nD) : V3 m ρ c main_v2
    = Cert.Spec.pscore (m ((c : Thread nD τ).loc main_arg1)) (V2 m ρ c main_v1) := by
  have h := Value1.arr1_eq (V2 m ρ) (dat1 (V2 m ρ) c) (A_eq1 (V2 m ρ) c)
    (fun t => (after1_2 (V2 m ρ) c t).trans (out1_2_eq _ _))
  rw [V2_of_ne0 m ρ c main_arg1 (by decide) (by decide)] at h
  exact (W3_arr m ρ c 2).trans h

/-- The third pallas_call's output array: the negative scores. -/
theorem V4_main_v3 (c : Dev nD) : V4 m ρ c main_v3
    = Cert.Spec.nscore (m ((c : Thread nD τ).loc main_arg2)) (V2 m ρ c main_v1) := by
  have h := Value2.arr2_eq (V3 m ρ) (dat2 (V3 m ρ) c) (A_eq2 (V3 m ρ) c)
    (fun t => (after2_2 (V3 m ρ) c t).trans (out2_2_eq _ _))
  rw [V3_main_v1 m ρ c, show V3 m ρ c main_arg2 = m ((c : Thread nD τ).loc main_arg2) from
    (W3_of_ne m ρ c main_arg2 (by decide)).trans (V2_of_ne0 m ρ c main_arg2 (by decide) (by decide))] at h
  exact (W4_arr m ρ c 2).trans h

theorem V4_main_v2 (c : Dev nD) : V4 m ρ c main_v2 = V3 m ρ c main_v2 := W4_of_ne m ρ c main_v2 (by decide)

/-! ## The result -/

/-- The result buffer at the end: the two score arrays side by side. -/
theorem W5_main_v4 (c : Dev nD) : W5 m ρ c (Proc.devRef .tc main_v4)
    = concatenate S512x513 1
        [⟨S512x1, Cert.Spec.pscore (m ((c : Thread nD τ).loc main_arg1))
            (Cert.Spec.emb (m ((c : Thread nD τ).loc main_arg0)) (m ((c : Thread nD τ).loc main_arg3)) (m ((c : Thread nD τ).loc main_arg4)))⟩,
         ⟨S512x512, Cert.Spec.nscore (m ((c : Thread nD τ).loc main_arg2))
            (Cert.Spec.emb (m ((c : Thread nD τ).loc main_arg0)) (m ((c : Thread nD τ).loc main_arg3)) (m ((c : Thread nD τ).loc main_arg4)))⟩]
        concatenates_S512x1_S512x512_S512x513_d1 := by
  have e : W5 m ρ c (Proc.devRef .tc main_v4)
      = concatenate S512x513 1 [⟨S512x1, V4 m ρ c main_v2⟩, ⟨S512x512, V4 m ρ c main_v3⟩] concatenates_S512x1_S512x512_S512x513_d1 := by
    show StableHlo.after hostOps3 (W4 m ρ c) (Proc.devRef .tc main_v4) = _
    after_results
  rw [e, V4_main_v2, V3_main_v2, V4_main_v3, V2_main_v1]

/-- THE VALUE: every weakly fair execution ends with the result at the two score arrays of the embedding of the
    arguments, side by side, and the arguments as launched. -/
theorem run_value : θ_run defs (onTc (τ := τ) (main (F := Ideal))) ⟨m, fun _ => 0, ρ⟩ (fun r => ∀ c : Dev nD,
      r.2.mem ((c.tc : Thread nD τ).loc main_v4)
        = concatenate S512x513 1
            [⟨S512x1, Cert.Spec.pscore (m ((c.tc : Thread nD τ).loc main_arg1))
                (Cert.Spec.emb (m ((c.tc : Thread nD τ).loc main_arg0)) (m ((c.tc : Thread nD τ).loc main_arg3)) (m ((c.tc : Thread nD τ).loc main_arg4)))⟩,
             ⟨S512x512, Cert.Spec.nscore (m ((c.tc : Thread nD τ).loc main_arg2))
                (Cert.Spec.emb (m ((c.tc : Thread nD τ).loc main_arg0)) (m ((c.tc : Thread nD τ).loc main_arg3)) (m ((c.tc : Thread nD τ).loc main_arg4)))⟩]
            concatenates_S512x1_S512x512_S512x513_d1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v4 (by decide))).trans (W5_main_v4 m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_main m ρ)

end Cert.KernelIdeal.Hand

end
-- ==== Proof.RefValue.lean ====
/-
  The reference's result, read one host operation at a time, is the result row of `Cert.Spec`: column 0 the positive score,
  columns 1 … 512 the negative scores, of the embedding of the arguments.
-/
import proofs.«160421_j35055523070022_1_alg».proof.Proof.Gen.ReferenceIdeal.Read
import proofs.«160421_j35055523070022_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

/-! ## The index functions the stages compose are the coordinate constructors -/

/-- The contraction reads row `i 0` of the left operand. -/
theorem lidx_eq (i : S512x1024.Idx) (k : Fin 4096) : lidx_main_v0 i k = (ix2 (i 0) k : S512x4096.Idx) :=
  funext fun a => by match a with | ⟨0, _⟩ => rfl | ⟨1, _⟩ => rfl

/-- The contraction reads row `i 1` of the right operand. -/
theorem ridx_eq (i : S512x1024.Idx) (k : Fin 4096) : ridx_main_v0 i k = (ix2 (i 1) k : S1024x4096.Idx) :=
  funext fun a => by match a with | ⟨0, _⟩ => rfl | ⟨1, _⟩ => rfl

/-- The twice-broadcast bias is read at the column. -/
theorem bias_idx_eq (i : S512x1024.Idx) : idx_main_v1 (idx_main_v2 i) = (ix1 (i 1) : S1024.Idx) :=
  funext fun a => by match a with | ⟨0, _⟩ => rfl

/-- The positive score's sum runs over row `i 0`. -/
theorem prow_idx_eq (i : S512x1.Idx) (k : Fin 1024) : idx_main_v7 (idx_main_v20 i) k = (ix2 (i 0) k : S512x1024.Idx) :=
  funext fun a => by match a with | ⟨0, _⟩ => rfl | ⟨1, _⟩ => rfl

/-- In the negative score at `(b, j)` the broadcast `n` is read at row `j`. -/
theorem nrow_idx_eq (i : S512x512.Idx) (k : Fin 1024) :
    idx_main_v10 (idx_main_v12 (idx_main_v17 i k)) = (ix2 (i 1) k : S512x1024.Idx) :=
  funext fun a => by match a with | ⟨0, _⟩ => rfl | ⟨1, _⟩ => rfl

/-- In the negative score at `(b, j)` the broadcast embedding is read at row `b`. -/
theorem erow_idx_eq (i : S512x512.Idx) (k : Fin 1024) :
    idx_main_v11 (idx_main_v13 (idx_main_v17 i k)) = (ix2 (i 0) k : S512x1024.Idx) :=
  funext fun a => by match a with | ⟨0, _⟩ => rfl | ⟨1, _⟩ => rfl

/-! ## The stages -/

/-- The contraction plus the broadcast bias is the specification's embedding. -/
theorem emb_stage (x0 : (⟨S512x4096, .f32⟩ : BufTy).Contents (Elt Ideal)) (x3 : (⟨S1024x4096, .f32⟩ : BufTy).Contents (Elt Ideal))
    (x4 : (⟨S1024, .f32⟩ : BufTy).Contents (Elt Ideal)) :
    val_main_v3 (F := Ideal) x0 x3 x4 = Cert.Spec.emb x0 x3 x4 := by
  funext i
  rw [val_main_v3_apply, val_main_v0_apply, val_main_v2_apply, val_main_v1_apply, bias_idx_eq]
  simp only [lidx_eq, ridx_eq, Ideal.addf_def]
  rfl

/-- The first operand of the concatenation is the positive score of the embedding: the reduction's zero start adds
    nothing, and each summand is the squared positive part of `p - emb` on row `i 0`. -/
theorem pscore_stage (x0 : (⟨S512x4096, .f32⟩ : BufTy).Contents (Elt Ideal)) (x1 : (⟨S512x1024, .f32⟩ : BufTy).Contents (Elt Ideal))
    (x3 : (⟨S1024x4096, .f32⟩ : BufTy).Contents (Elt Ideal)) (x4 : (⟨S1024, .f32⟩ : BufTy).Contents (Elt Ideal)) :
    val_main_v20 (F := Ideal) x0 x1 x3 x4 = Cert.Spec.pscore x1 (Cert.Spec.emb x0 x3 x4) := by
  funext i
  rw [val_main_v20_apply, val_main_v9_apply, val_main_v8_apply, val_main_v7_apply, val_main_cst_apply]
  simp only [val_main_v6_apply, val_main_v5_apply, val_main_v4_apply, val_main_call0_v0_apply, val_main_call0_cst_apply,
    prow_idx_eq, emb_stage]
  generalize Cert.Spec.emb x0 x3 x4 = e
  simp only [Ideal.hostNegf_def, Ideal.negf_def, Ideal.hostUnary_sqrt_def, Ideal.mulf_def, Ideal.maximumf_def, Ideal.subf_def,
    Ideal.ofBits_def, Ideal.ofBits_zero_f32, zero_add]
  rfl

/-- The second operand of the concatenation is the negative scores of the embedding: at `(b, j)` the broadcast `n` is
    read on row `j`, the broadcast embedding on row `b`, and the reduction's zero start adds nothing. -/
theorem nscore_stage (x0 : (⟨S512x4096, .f32⟩ : BufTy).Contents (Elt Ideal)) (x2 : (⟨S512x1024, .f32⟩ : BufTy).Contents (Elt Ideal))
    (x3 : (⟨S1024x4096, .f32⟩ : BufTy).Contents (Elt Ideal)) (x4 : (⟨S1024, .f32⟩ : BufTy).Contents (Elt Ideal)) :
    val_main_v19 (F := Ideal) x0 x2 x3 x4 = Cert.Spec.nscore x2 (Cert.Spec.emb x0 x3 x4) := by
  funext i
  rw [val_main_v19_apply, val_main_v18_apply, val_main_v17_apply, val_main_cst_0_apply]
  simp only [val_main_v16_apply, val_main_v15_apply, val_main_v14_apply, val_main_v12_apply, val_main_v10_apply,
    val_main_v13_apply, val_main_v11_apply, val_main_call1_v0_apply, val_main_call1_cst_apply,
    nrow_idx_eq, erow_idx_eq, emb_stage]
  generalize Cert.Spec.emb x0 x3 x4 = e
  simp only [Ideal.hostNegf_def, Ideal.negf_def, Ideal.hostUnary_sqrt_def, Ideal.mulf_def, Ideal.maximumf_def, Ideal.subf_def,
    Ideal.ofBits_def, Ideal.ofBits_zero_f32, zero_add]
  rfl

/-- The last stage is the concatenation of the two scores of the embedding. -/
theorem result_eq (x0 : (⟨S512x4096, .f32⟩ : BufTy).Contents (Elt Ideal)) (x1 x2 : (⟨S512x1024, .f32⟩ : BufTy).Contents (Elt Ideal))
    (x3 : (⟨S1024x4096, .f32⟩ : BufTy).Contents (Elt Ideal)) (x4 : (⟨S1024, .f32⟩ : BufTy).Contents (Elt Ideal)) :
    val_main_v21 (F := Ideal) x0 x1 x2 x3 x4
      = concatenate S512x513 1
          [⟨S512x1, Cert.Spec.pscore x1 (Cert.Spec.emb x0 x3 x4)⟩, ⟨S512x512, Cert.Spec.nscore x2 (Cert.Spec.emb x0 x3 x4)⟩]
          concatenates_S512x1_S512x512_S512x513_d1 := by
  unfold val_main_v21
  rw [pscore_stage, nscore_stage]

/-! ## The run -/

/-- Every weakly fair execution of the reference ends with its result at the concatenation of the positive score and the
    negative scores of the embedding of the arguments, the arguments unchanged. -/
theorem run_spec (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v21)
          = concatenate Cert.ReferenceIdeal.S512x513 1
              [⟨Cert.ReferenceIdeal.S512x1,
                  Cert.Spec.pscore (m' ((c.tc : Thread Cert.ReferenceIdeal.nD Cert.ReferenceIdeal.τ).loc Cert.ReferenceIdeal.main_arg1))
                    (Cert.Spec.emb (m' ((c.tc : Thread Cert.ReferenceIdeal.nD Cert.ReferenceIdeal.τ).loc Cert.ReferenceIdeal.main_arg0))
                      (m' ((c.tc : Thread Cert.ReferenceIdeal.nD Cert.ReferenceIdeal.τ).loc Cert.ReferenceIdeal.main_arg3))
                      (m' ((c.tc : Thread Cert.ReferenceIdeal.nD Cert.ReferenceIdeal.τ).loc Cert.ReferenceIdeal.main_arg4)))⟩,
               ⟨Cert.ReferenceIdeal.S512x512,
                  Cert.Spec.nscore (m' ((c.tc : Thread Cert.ReferenceIdeal.nD Cert.ReferenceIdeal.τ).loc Cert.ReferenceIdeal.main_arg2))
                    (Cert.Spec.emb (m' ((c.tc : Thread Cert.ReferenceIdeal.nD Cert.ReferenceIdeal.τ).loc Cert.ReferenceIdeal.main_arg0))
                      (m' ((c.tc : Thread Cert.ReferenceIdeal.nD Cert.ReferenceIdeal.τ).loc Cert.ReferenceIdeal.main_arg3))
                      (m' ((c.tc : Thread Cert.ReferenceIdeal.nD Cert.ReferenceIdeal.τ).loc Cert.ReferenceIdeal.main_arg4)))⟩]
              Cert.ReferenceIdeal.Gen.concatenates_S512x1_S512x512_S512x513_d1
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
            = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4)
            = m' ((c.tc : Thread Cert.ReferenceIdeal.nD Cert.ReferenceIdeal.τ).loc Cert.ReferenceIdeal.main_arg4)) :=
  (θ_run _ _ _).mono
    (fun _ h c => ⟨(h c).1.trans ((Read.val_main_v21_eq (F := Ideal) _ _ _ _ _).trans (result_eq _ _ _ _ _)), (h c).2⟩)
    (Cert.ReferenceIdeal.Value.run (F := Ideal) m' g')

end Cert.ReferenceIdeal.RefValue

end
-- ==== Proof.lean ====
/-
  The certificate. The three pallas_calls and the two host operations of @main are composed item by item, at any float
  instance: read at the arguments that is the frame of the word-level program and of its idealization. At the ideal
  instance the first pallas_call's four accumulation steps per row block are one sum over the 4096 columns, so its output
  is the embedding Σ_d vf[b, d] · W[e, d] + bias[e]; the second leaves -√(Σ_e max(p - emb, 0)²) per row; the third's sixteen
  chunks of 64 columns are one sum over the 1024 columns, so it leaves -√(Σ_e max(n[k] - emb[b], 0)²); the reference computes
  the same three functions of the same arguments and both programs concatenate the two score arrays along the columns.
  Only commutativity and associativity of the sums are used: the precondition is not opened.
-/
import proofs.«160421_j35055523070022_1_alg».proof.Defs
import proofs.«160421_j35055523070022_1_alg».proof.Proof.Gen.Kernel
import proofs.«160421_j35055523070022_1_alg».proof.Proof.Gen.KernelIdeal
import proofs.«160421_j35055523070022_1_alg».proof.Proof.Gen.ReferenceIdeal
import proofs.«160421_j35055523070022_1_alg».proof.Proof.Gen.Pre_finite_inputs
import proofs.«160421_j35055523070022_1_alg».proof.Proof.Gen.ReferenceIdeal.Run
import proofs.«160421_j35055523070022_1_alg».proof.Proof.FrameK.Run
import proofs.«160421_j35055523070022_1_alg».proof.Proof.ValueI.Result
import proofs.«160421_j35055523070022_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_p : Cert.frame_Kernel := fun m ρ _ => Cert.Kernel.Hand.frame m ρ

/-- So does its idealization. -/
theorem frame_pi : Cert.frame_KernelIdeal := fun m ρ _ => Cert.KernelIdeal.Hand.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the two score arrays of the embedding of the (agreeing) arguments side by side. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.RefValue.run_spec m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
